-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v78)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048 : Shape := ⟨2, ![8, 2048]⟩
abbrev S20000x1024 : Shape := ⟨2, ![20000, 1024]⟩
abbrev S20000x256 : Shape := ⟨2, ![20000, 256]⟩
abbrev S160000x64 : Shape := ⟨2, ![160000, 64]⟩
abbrev S67735x16 : Shape := ⟨2, ![67735, 16]⟩
abbrev S1024x1024 : Shape := ⟨2, ![1024, 1024]⟩
abbrev S1024x256 : Shape := ⟨2, ![1024, 256]⟩
abbrev S1024x64 : Shape := ⟨2, ![1024, 64]⟩
abbrev S1024x16 : Shape := ⟨2, ![1024, 16]⟩
abbrev S_ : Shape := ⟨0, ![]⟩

class Facts : Prop where
  bcast_S_S20000x1024 : S_.BroadcastsInDim S20000x1024 (![] : Fin 0 → Fin S20000x1024.rank)
  reducesTo_S20000x1024_S_d0_1 : S20000x1024.ReducesTo [0, 1] S_
  h_S_ : 0 < S_.numel
  bcast_S_S20000x256 : S_.BroadcastsInDim S20000x256 (![] : Fin 0 → Fin S20000x256.rank)
  reducesTo_S20000x256_S_d0_1 : S20000x256.ReducesTo [0, 1] S_
  bcast_S_S160000x64 : S_.BroadcastsInDim S160000x64 (![] : Fin 0 → Fin S160000x64.rank)
  reducesTo_S160000x64_S_d0_1 : S160000x64.ReducesTo [0, 1] S_
  bcast_S_S67735x16 : S_.BroadcastsInDim S67735x16 (![] : Fin 0 → Fin S67735x16.rank)
  reducesTo_S67735x16_S_d0_1 : S67735x16.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024x256 : S_.BroadcastsInDim S1024x256 (![] : Fin 0 → Fin S1024x256.rank)
  reducesTo_S1024x256_S_d0_1 : S1024x256.ReducesTo [0, 1] S_
  bcast_S_S1024x64 : S_.BroadcastsInDim S1024x64 (![] : Fin 0 → Fin S1024x64.rank)
  reducesTo_S1024x64_S_d0_1 : S1024x64.ReducesTo [0, 1] S_
  bcast_S_S1024x16 : S_.BroadcastsInDim S1024x16 (![] : Fin 0 → Fin S1024x16.rank)
  reducesTo_S1024x16_S_d0_1 : S1024x16.ReducesTo [0, 1] S_

variable [Facts]

def fn_part2 {F : FTy → Type} [FloatOps F] (main_arg8 : FVec F S1024x16 .f32) (main_v33 : IVec S_ 1) : IVec S_ 1 :=
  let main_v34 : FVec F S1024x16 .f32 := Host.absf main_arg8
  let main_cst_12 : FVec F S_ .f32 := constant S_ .f32 0x7F800000#32
  let main_v35 : FVec F S1024x16 .f32 := broadcastInDim S1024x16 ![] bcast_S_S1024x16 main_cst_12
  let main_v36 : IVec S1024x16 1 := cmpf .olt main_v34 main_v35
  let main_c_13 : IVec S_ 1 := constantI S_ 1 1#1
  let main_v37 : IVec S_ 1 := (fun x v => Host.reduce IntOp.andi x v reducesTo_S1024x16_S_d0_1 h_S_) main_v36 main_c_13
  let main_v38 : IVec S_ 1 := andi main_v33 main_v37
  main_v38

def fn_part1 {F : FTy → Type} [FloatOps F] (main_arg5 : FVec F S1024x1024 .f32) (main_arg6 : FVec F S1024x256 .f32) (main_arg7 : FVec F S1024x64 .f32) (main_arg8 : FVec F S1024x16 .f32) (main_v13 : IVec S_ 1) (main_v16 : IVec S67735x16 1) : IVec S_ 1 :=
  let main_c_5 : IVec S_ 1 := constantI S_ 1 1#1
  let main_v17 : IVec S_ 1 := (fun x v => Host.reduce IntOp.andi x v reducesTo_S67735x16_S_d0_1 h_S_) main_v16 main_c_5
  let main_v18 : IVec S_ 1 := andi main_v13 main_v17
  let main_v19 : FVec F S1024x1024 .f32 := Host.absf main_arg5
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024x256 .f32 := Host.absf main_arg6
  let main_cst_8 : FVec F S_ .f32 := constant S_ .f32 0x7F800000#32
  let main_v25 : FVec F S1024x256 .f32 := broadcastInDim S1024x256 ![] bcast_S_S1024x256 main_cst_8
  let main_v26 : IVec S1024x256 1 := cmpf .olt main_v24 main_v25
  let main_c_9 : IVec S_ 1 := constantI S_ 1 1#1
  let main_v27 : IVec S_ 1 := (fun x v => Host.reduce IntOp.andi x v reducesTo_S1024x256_S_d0_1 h_S_) main_v26 main_c_9
  let main_v28 : IVec S_ 1 := andi main_v23 main_v27
  let main_v29 : FVec F S1024x64 .f32 := Host.absf main_arg7
  let main_cst_10 : FVec F S_ .f32 := constant S_ .f32 0x7F800000#32
  let main_v30 : FVec F S1024x64 .f32 := broadcastInDim S1024x64 ![] bcast_S_S1024x64 main_cst_10
  let main_v31 : IVec S1024x64 1 := cmpf .olt main_v29 main_v30
  let main_c_11 : IVec S_ 1 := constantI S_ 1 1#1
  let main_v32 : IVec S_ 1 := (fun x v => Host.reduce IntOp.andi x v reducesTo_S1024x64_S_d0_1 h_S_) main_v31 main_c_11
  let main_v33 : IVec S_ 1 := andi main_v28 main_v32
  fn_part2 (F := F) main_arg8 main_v33

def fn {F : FTy → Type} [FloatOps F] (main_arg0 : IVec S8x2048 32) (main_arg1 : FVec F S20000x1024 .f32) (main_arg2 : FVec F S20000x256 .f32) (main_arg3 : FVec F S160000x64 .f32) (main_arg4 : FVec F S67735x16 .f32) (main_arg5 : FVec F S1024x1024 .f32) (main_arg6 : FVec F S1024x256 .f32) (main_arg7 : FVec F S1024x64 .f32) (main_arg8 : FVec F S1024x16 .f32) : IVec S_ 1 :=
  let main_v0 : FVec F S20000x1024 .f32 := Host.absf main_arg1
  let main_cst : FVec F S_ .f32 := constant S_ .f32 0x7F800000#32
  let main_v1 : FVec F S20000x1024 .f32 := broadcastInDim S20000x1024 ![] bcast_S_S20000x1024 main_cst
  let main_v2 : IVec S20000x1024 1 := cmpf .olt main_v0 main_v1
  let main_c : IVec S_ 1 := constantI S_ 1 1#1
  let main_v3 : IVec S_ 1 := (fun x v => Host.reduce IntOp.andi x v reducesTo_S20000x1024_S_d0_1 h_S_) main_v2 main_c
  let main_v4 : FVec F S20000x256 .f32 := Host.absf main_arg2
  let main_cst_0 : FVec F S_ .f32 := constant S_ .f32 0x7F800000#32
  let main_v5 : FVec F S20000x256 .f32 := broadcastInDim S20000x256 ![] bcast_S_S20000x256 main_cst_0
  let main_v6 : IVec S20000x256 1 := cmpf .olt main_v4 main_v5
  let main_c_1 : IVec S_ 1 := constantI S_ 1 1#1
  let main_v7 : IVec S_ 1 := (fun x v => Host.reduce IntOp.andi x v reducesTo_S20000x256_S_d0_1 h_S_) main_v6 main_c_1
  let main_v8 : IVec S_ 1 := andi main_v3 main_v7
  let main_v9 : FVec F S160000x64 .f32 := Host.absf main_arg3
  let main_cst_2 : FVec F S_ .f32 := constant S_ .f32 0x7F800000#32
  let main_v10 : FVec F S160000x64 .f32 := broadcastInDim S160000x64 ![] bcast_S_S160000x64 main_cst_2
  let main_v11 : IVec S160000x64 1 := cmpf .olt main_v9 main_v10
  let main_c_3 : IVec S_ 1 := constantI S_ 1 1#1
  let main_v12 : IVec S_ 1 := (fun x v => Host.reduce IntOp.andi x v reducesTo_S160000x64_S_d0_1 h_S_) main_v11 main_c_3
  let main_v13 : IVec S_ 1 := andi main_v8 main_v12
  let main_v14 : FVec F S67735x16 .f32 := Host.absf main_arg4
  let main_cst_4 : FVec F S_ .f32 := constant S_ .f32 0x7F800000#32
  let main_v15 : FVec F S67735x16 .f32 := broadcastInDim S67735x16 ![] bcast_S_S67735x16 main_cst_4
  let main_v16 : IVec S67735x16 1 := cmpf .olt main_v14 main_v15
  fn_part1 (F := F) main_arg5 main_arg6 main_arg7 main_arg8 main_v13 main_v16
-- ==== Kernel.lean ====
abbrev S8x2048 : Shape := ⟨2, ![8, 2048]⟩
abbrev S20000x1024 : Shape := ⟨2, ![20000, 1024]⟩
abbrev S20000x256 : Shape := ⟨2, ![20000, 256]⟩
abbrev S160000x64 : Shape := ⟨2, ![160000, 64]⟩
abbrev S67735x16 : Shape := ⟨2, ![67735, 16]⟩
abbrev S1024x1024 : Shape := ⟨2, ![1024, 1024]⟩
abbrev S1024x256 : Shape := ⟨2, ![1024, 256]⟩
abbrev S1024x64 : Shape := ⟨2, ![1024, 64]⟩
abbrev S1024x16 : Shape := ⟨2, ![1024, 16]⟩
abbrev S16384 : Shape := ⟨1, ![16384]⟩
abbrev S_ : Shape := ⟨0, ![]⟩
abbrev S16384x1 : Shape := ⟨2, ![16384, 1]⟩
abbrev S16384x1024 : Shape := ⟨2, ![16384, 1024]⟩
abbrev S16384x256 : Shape := ⟨2, ![16384, 256]⟩
abbrev S16384x64 : Shape := ⟨2, ![16384, 64]⟩
abbrev S16384x16 : Shape := ⟨2, ![16384, 16]⟩
abbrev S8x2048x1024 : Shape := ⟨3, ![8, 2048, 1024]⟩

abbrev nBuf : Space → Nat
  | .hbm => 152
  | .vmem => 14
  | .smem => 0
  | _ => 0

abbrev hbmTy0_0 (i : Nat) : BufTy := match i % 128 with
  | 0 => ⟨S8x2048, .i32⟩
  | 1 => ⟨S20000x1024, .f32⟩
  | 2 => ⟨S20000x256, .f32⟩
  | 3 => ⟨S160000x64, .f32⟩
  | 4 => ⟨S67735x16, .f32⟩
  | 5 => ⟨S1024x1024, .f32⟩
  | 6 => ⟨S1024x256, .f32⟩
  | 7 => ⟨S1024x64, .f32⟩
  | 8 => ⟨S1024x16, .f32⟩
  | 9 => ⟨S16384, .i32⟩
  | 10 => ⟨S_, .i32⟩
  | 11 => ⟨S16384, .i32⟩
  | 12 => ⟨S16384, .i1⟩
  | 13 => ⟨S_, .i32⟩
  | 14 => ⟨S16384, .i32⟩
  | 15 => ⟨S16384, .i1⟩
  | 16 => ⟨S16384, .i1⟩
  | 17 => ⟨S_, .i32⟩
  | 18 => ⟨S16384, .i32⟩
  | 19 => ⟨S16384, .i32⟩
  | 20 => ⟨S_, .i32⟩
  | 21 => ⟨S_, .i32⟩
  | 22 => ⟨S_, .i32⟩
  | 23 => ⟨S16384, .i32⟩
  | 24 => ⟨S16384, .i32⟩
  | 25 => ⟨S_, .i32⟩
  | 26 => ⟨S16384, .i32⟩
  | 27 => ⟨S16384, .i32⟩
  | 28 => ⟨S_, .i32⟩
  | 29 => ⟨S16384, .i32⟩
  | 30 => ⟨S16384, .i1⟩
  | 31 => ⟨S_, .i32⟩
  | 32 => ⟨S16384, .i32⟩
  | 33 => ⟨S16384, .i32⟩
  | 34 => ⟨S16384, .i32⟩
  | 35 => ⟨S16384x1, .i32⟩
  | 36 => ⟨S16384x1024, .f32⟩
  | 37 => ⟨S16384x1, .i1⟩
  | 38 => ⟨S_, .f32⟩
  | 39 => ⟨S_, .f32⟩
  | 40 => ⟨S16384x1024, .i1⟩
  | 41 => ⟨S16384x1024, .f32⟩
  | 42 => ⟨S16384x1024, .f32⟩
  | 43 => ⟨S16384x1024, .bf16⟩
  | 44 => ⟨S_, .i32⟩
  | 45 => ⟨S16384, .i32⟩
  | 46 => ⟨S16384, .i1⟩
  | 47 => ⟨S_, .i32⟩
  | 48 => ⟨S16384, .i32⟩
  | 49 => ⟨S16384, .i1⟩
  | 50 => ⟨S16384, .i1⟩
  | 51 => ⟨S_, .i32⟩
  | 52 => ⟨S16384, .i32⟩
  | 53 => ⟨S16384, .i32⟩
  | 54 => ⟨S_, .i32⟩
  | 55 => ⟨S_, .i32⟩
  | 56 => ⟨S_, .i32⟩
  | 57 => ⟨S16384, .i32⟩
  | 58 => ⟨S16384, .i32⟩
  | 59 => ⟨S_, .i32⟩
  | 60 => ⟨S16384, .i32⟩
  | 61 => ⟨S16384, .i32⟩
  | 62 => ⟨S_, .i32⟩
  | 63 => ⟨S16384, .i32⟩
  | 64 => ⟨S16384, .i1⟩
  | 65 => ⟨S_, .i32⟩
  | 66 => ⟨S16384, .i32⟩
  | 67 => ⟨S16384, .i32⟩
  | 68 => ⟨S16384, .i32⟩
  | 69 => ⟨S16384x1, .i32⟩
  | 70 => ⟨S16384x256, .f32⟩
  | 71 => ⟨S16384x1, .i1⟩
  | 72 => ⟨S_, .f32⟩
  | 73 => ⟨S_, .f32⟩
  | 74 => ⟨S16384x256, .i1⟩
  | 75 => ⟨S16384x256, .f32⟩
  | 76 => ⟨S16384x256, .f32⟩
  | 77 => ⟨S16384x256, .bf16⟩
  | 78 => ⟨S_, .i32⟩
  | 79 => ⟨S16384, .i32⟩
  | 80 => ⟨S16384, .i1⟩
  | 81 => ⟨S_, .i32⟩
  | 82 => ⟨S16384, .i32⟩
  | 83 => ⟨S16384, .i1⟩
  | 84 => ⟨S16384, .i1⟩
  | 85 => ⟨S_, .i32⟩
  | 86 => ⟨S16384, .i32⟩
  | 87 => ⟨S16384, .i32⟩
  | 88 => ⟨S_, .i32⟩
  | 89 => ⟨S_, .i32⟩
  | 90 => ⟨S_, .i32⟩
  | 91 => ⟨S16384, .i32⟩
  | 92 => ⟨S16384, .i32⟩
  | 93 => ⟨S_, .i32⟩
  | 94 => ⟨S16384, .i32⟩
  | 95 => ⟨S16384, .i32⟩
  | 96 => ⟨S_, .i32⟩
  | 97 => ⟨S16384, .i32⟩
  | 98 => ⟨S16384, .i1⟩
  | 99 => ⟨S_, .i32⟩
  | 100 => ⟨S16384, .i32⟩
  | 101 => ⟨S16384, .i32⟩
  | 102 => ⟨S16384, .i32⟩
  | 103 => ⟨S16384x1, .i32⟩
  | 104 => ⟨S16384x64, .f32⟩
  | 105 => ⟨S16384x1, .i1⟩
  | 106 => ⟨S_, .f32⟩
  | 107 => ⟨S_, .f32⟩
  | 108 => ⟨S16384x64, .i1⟩
  | 109 => ⟨S16384x64, .f32⟩
  | 110 => ⟨S16384x64, .f32⟩
  | 111 => ⟨S16384x64, .bf16⟩
  | 112 => ⟨S_, .i32⟩
  | 113 => ⟨S16384, .i32⟩
  | 114 => ⟨S16384, .i1⟩
  | 115 => ⟨S_, .i32⟩
  | 116 => ⟨S16384, .i32⟩
  | 117 => ⟨S16384, .i1⟩
  | 118 => ⟨S16384, .i1⟩
  | 119 => ⟨S_, .i32⟩
  | 120 => ⟨S16384, .i32⟩
  | 121 => ⟨S16384, .i32⟩
  | 122 => ⟨S_, .i32⟩
  | 123 => ⟨S_, .i32⟩
  | 124 => ⟨S_, .i32⟩
  | 125 => ⟨S16384, .i32⟩
  | 126 => ⟨S16384, .i32⟩
  | 127 => ⟨S_, .i32⟩
  | _ => ⟨S8x2048, .i32⟩

abbrev hbmTy0_1 (i : Nat) : BufTy := match i % 128 with
  | 0 => ⟨S16384, .i32⟩
  | 1 => ⟨S16384, .i32⟩
  | 2 => ⟨S_, .i32⟩
  | 3 => ⟨S16384, .i32⟩
  | 4 => ⟨S16384, .i1⟩
  | 5 => ⟨S_, .i32⟩
  | 6 => ⟨S16384, .i32⟩
  | 7 => ⟨S16384, .i32⟩
  | 8 => ⟨S16384, .i32⟩
  | 9 => ⟨S16384x1, .i32⟩
  | 10 => ⟨S16384x16, .f32⟩
  | 11 => ⟨S16384x1, .i1⟩
  | 12 => ⟨S_, .f32⟩
  | 13 => ⟨S_, .f32⟩
  | 14 => ⟨S16384x16, .i1⟩
  | 15 => ⟨S16384x16, .f32⟩
  | 16 => ⟨S16384x16, .f32⟩
  | 17 => ⟨S16384x16, .bf16⟩
  | 18 => ⟨S1024x1024, .bf16⟩
  | 19 => ⟨S1024x256, .bf16⟩
  | 20 => ⟨S1024x64, .bf16⟩
  | 21 => ⟨S1024x16, .bf16⟩
  | 22 => ⟨S16384x1024, .f32⟩
  | 23 => ⟨S8x2048x1024, .f32⟩
  | _ => ⟨S8x2048, .i32⟩

abbrev hbmTy (i : Nat) : BufTy := match i / 128 with
  | 0 => hbmTy0_0 i
  | 1 => hbmTy0_1 i
  | _ => ⟨S8x2048, .i32⟩

abbrev bufTy : (tb : Table) → Fin (tcTables nBuf tb) → BufTy
  | .hbm, ⟨i, _⟩ => hbmTy i
  | .local _ .vmem, ⟨0, _⟩ => ⟨S1024x1024, .bf16⟩
  | .local _ .vmem, ⟨1, _⟩ => ⟨S1024x1024, .bf16⟩
  | .local _ .vmem, ⟨2, _⟩ => ⟨S1024x256, .bf16⟩
  | .local _ .vmem, ⟨3, _⟩ => ⟨S1024x256, .bf16⟩
  | .local _ .vmem, ⟨4, _⟩ => ⟨S1024x64, .bf16⟩
  | .local _ .vmem, ⟨5, _⟩ => ⟨S1024x64, .bf16⟩
  | .local _ .vmem, ⟨6, _⟩ => ⟨S1024x16, .bf16⟩
  | .local _ .vmem, ⟨7, _⟩ => ⟨S1024x16, .bf16⟩
  | .local _ .vmem, ⟨8, _⟩ => ⟨S1024x1024, .bf16⟩
  | .local _ .vmem, ⟨9, _⟩ => ⟨S1024x256, .bf16⟩
  | .local _ .vmem, ⟨10, _⟩ => ⟨S1024x64, .bf16⟩
  | .local _ .vmem, ⟨11, _⟩ => ⟨S1024x16, .bf16⟩
  | .local _ .vmem, ⟨12, _⟩ => ⟨S1024x1024, .f32⟩
  | .local _ .vmem, ⟨13, _⟩ => ⟨S1024x1024, .f32⟩
  | _, _ => ⟨S8x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_c_1 : Ref sig .tc := ⟨.hbm, 17, rfl⟩
abbrev main_v6 : Ref sig .tc := ⟨.hbm, 18, rfl⟩
abbrev main_v7 : Ref sig .tc := ⟨.hbm, 19, rfl⟩
abbrev main_c_2 : Ref sig .tc := ⟨.hbm, 20, rfl⟩
abbrev main_c_3 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_v8 : Ref sig .tc := ⟨.hbm, 27, rfl⟩
abbrev main_c_4 : Ref sig .tc := ⟨.hbm, 28, rfl⟩
abbrev main_v9 : Ref sig .tc := ⟨.hbm, 29, rfl⟩
abbrev main_v10 : Ref sig .tc := ⟨.hbm, 30, rfl⟩
abbrev main_c_5 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_cst : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v17 : Ref sig .tc := ⟨.hbm, 42, rfl⟩
abbrev main_v18 : Ref sig .tc := ⟨.hbm, 43, rfl⟩
abbrev main_c_6 : Ref sig .tc := ⟨.hbm, 44, rfl⟩
abbrev main_v19 : Ref sig .tc := ⟨.hbm, 45, rfl⟩
abbrev main_v20 : Ref sig .tc := ⟨.hbm, 46, rfl⟩
abbrev main_c_7 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_c_8 : Ref sig .tc := ⟨.hbm, 51, rfl⟩
abbrev main_v24 : Ref sig .tc := ⟨.hbm, 52, rfl⟩
abbrev main_v25 : Ref sig .tc := ⟨.hbm, 53, rfl⟩
abbrev main_c_9 : Ref sig .tc := ⟨.hbm, 54, rfl⟩
abbrev main_c_10 : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_call2_v3 : Ref sig .tc := ⟨.hbm, 59, rfl⟩
abbrev main_call2_v4 : Ref sig .tc := ⟨.hbm, 60, rfl⟩
abbrev main_v26 : Ref sig .tc := ⟨.hbm, 61, rfl⟩
abbrev main_c_11 : Ref sig .tc := ⟨.hbm, 62, rfl⟩
abbrev main_v27 : Ref sig .tc := ⟨.hbm, 63, rfl⟩
abbrev main_v28 : Ref sig .tc := ⟨.hbm, 64, rfl⟩
abbrev main_c_12 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_cst_13 : Ref sig .tc := ⟨.hbm, 72, rfl⟩
abbrev main_call3_v0 : Ref sig .tc := ⟨.hbm, 73, rfl⟩
abbrev main_call3_v1 : Ref sig .tc := ⟨.hbm, 74, rfl⟩
abbrev main_call3_v2 : Ref sig .tc := ⟨.hbm, 75, rfl⟩
abbrev main_v35 : Ref sig .tc := ⟨.hbm, 76, rfl⟩
abbrev main_v36 : Ref sig .tc := ⟨.hbm, 77, rfl⟩
abbrev main_c_14 : Ref sig .tc := ⟨.hbm, 78, rfl⟩
abbrev main_v37 : Ref sig .tc := ⟨.hbm, 79, rfl⟩
abbrev main_v38 : Ref sig .tc := ⟨.hbm, 80, rfl⟩
abbrev main_c_15 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_c_16 : Ref sig .tc := ⟨.hbm, 85, rfl⟩
abbrev main_v42 : Ref sig .tc := ⟨.hbm, 86, rfl⟩
abbrev main_v43 : Ref sig .tc := ⟨.hbm, 87, rfl⟩
abbrev main_c_17 : Ref sig .tc := ⟨.hbm, 88, rfl⟩
abbrev main_c_18 : Ref sig .tc := ⟨.hbm, 89, rfl⟩
abbrev main_call4_v0 : Ref sig .tc := ⟨.hbm, 90, rfl⟩
abbrev main_call4_v1 : Ref sig .tc := ⟨.hbm, 91, rfl⟩
abbrev main_call4_v2 : Ref sig .tc := ⟨.hbm, 92, rfl⟩
abbrev main_call4_v3 : Ref sig .tc := ⟨.hbm, 93, rfl⟩
abbrev main_call4_v4 : Ref sig .tc := ⟨.hbm, 94, rfl⟩
abbrev main_v44 : Ref sig .tc := ⟨.hbm, 95, rfl⟩
abbrev main_c_19 : Ref sig .tc := ⟨.hbm, 96, rfl⟩
abbrev main_v45 : Ref sig .tc := ⟨.hbm, 97, rfl⟩
abbrev main_v46 : Ref sig .tc := ⟨.hbm, 98, rfl⟩
abbrev main_c_20 : Ref sig .tc := ⟨.hbm, 99, rfl⟩
abbrev main_v47 : Ref sig .tc := ⟨.hbm, 100, rfl⟩
abbrev main_v48 : Ref sig .tc := ⟨.hbm, 101, rfl⟩
abbrev main_v49 : Ref sig .tc := ⟨.hbm, 102, rfl⟩
abbrev main_v50 : Ref sig .tc := ⟨.hbm, 103, rfl⟩
abbrev main_v51 : Ref sig .tc := ⟨.hbm, 104, rfl⟩
abbrev main_v52 : Ref sig .tc := ⟨.hbm, 105, rfl⟩
abbrev main_cst_21 : Ref sig .tc := ⟨.hbm, 106, rfl⟩
abbrev main_call5_v0 : Ref sig .tc := ⟨.hbm, 107, rfl⟩
abbrev main_call5_v1 : Ref sig .tc := ⟨.hbm, 108, rfl⟩
abbrev main_call5_v2 : Ref sig .tc := ⟨.hbm, 109, rfl⟩
abbrev main_v53 : Ref sig .tc := ⟨.hbm, 110, rfl⟩
abbrev main_v54 : Ref sig .tc := ⟨.hbm, 111, rfl⟩
abbrev main_c_22 : Ref sig .tc := ⟨.hbm, 112, rfl⟩
abbrev main_v55 : Ref sig .tc := ⟨.hbm, 113, rfl⟩
abbrev main_v56 : Ref sig .tc := ⟨.hbm, 114, rfl⟩
abbrev main_c_23 : Ref sig .tc := ⟨.hbm, 115, rfl⟩
abbrev main_v57 : Ref sig .tc := ⟨.hbm, 116, rfl⟩
abbrev main_v58 : Ref sig .tc := ⟨.hbm, 117, rfl⟩
abbrev main_v59 : Ref sig .tc := ⟨.hbm, 118, rfl⟩
abbrev main_c_24 : Ref sig .tc := ⟨.hbm, 119, rfl⟩
abbrev main_v60 : Ref sig .tc := ⟨.hbm, 120, rfl⟩
abbrev main_v61 : Ref sig .tc := ⟨.hbm, 121, rfl⟩
abbrev main_c_25 : Ref sig .tc := ⟨.hbm, 122, rfl⟩
abbrev main_c_26 : Ref sig .tc := ⟨.hbm, 123, rfl⟩
abbrev main_call6_v0 : Ref sig .tc := ⟨.hbm, 124, rfl⟩
abbrev main_call6_v1 : Ref sig .tc := ⟨.hbm, 125, rfl⟩
abbrev main_call6_v2 : Ref sig .tc := ⟨.hbm, 126, rfl⟩
abbrev main_call6_v3 : Ref sig .tc := ⟨.hbm, 127, rfl⟩
abbrev main_call6_v4 : Ref sig .tc := ⟨.hbm, 128, rfl⟩
abbrev main_v62 : Ref sig .tc := ⟨.hbm, 129, rfl⟩
abbrev main_c_27 : Ref sig .tc := ⟨.hbm, 130, rfl⟩
abbrev main_v63 : Ref sig .tc := ⟨.hbm, 131, rfl⟩
abbrev main_v64 : Ref sig .tc := ⟨.hbm, 132, rfl⟩
abbrev main_c_28 : Ref sig .tc := ⟨.hbm, 133, rfl⟩
abbrev main_v65 : Ref sig .tc := ⟨.hbm, 134, rfl⟩
abbrev main_v66 : Ref sig .tc := ⟨.hbm, 135, rfl⟩
abbrev main_v67 : Ref sig .tc := ⟨.hbm, 136, rfl⟩
abbrev main_v68 : Ref sig .tc := ⟨.hbm, 137, rfl⟩
abbrev main_v69 : Ref sig .tc := ⟨.hbm, 138, rfl⟩
abbrev main_v70 : Ref sig .tc := ⟨.hbm, 139, rfl⟩
abbrev main_cst_29 : Ref sig .tc := ⟨.hbm, 140, rfl⟩
abbrev main_call7_v0 : Ref sig .tc := ⟨.hbm, 141, rfl⟩
abbrev main_call7_v1 : Ref sig .tc := ⟨.hbm, 142, rfl⟩
abbrev main_call7_v2 : Ref sig .tc := ⟨.hbm, 143, rfl⟩
abbrev main_v71 : Ref sig .tc := ⟨.hbm, 144, rfl⟩
abbrev main_v72 : Ref sig .tc := ⟨.hbm, 145, rfl⟩
abbrev main_v73 : Ref sig .tc := ⟨.hbm, 146, rfl⟩
abbrev main_v74 : Ref sig .tc := ⟨.hbm, 147, rfl⟩
abbrev main_v75 : Ref sig .tc := ⟨.hbm, 148, rfl⟩
abbrev main_v76 : Ref sig .tc := ⟨.hbm, 149, rfl⟩
abbrev main_v77 : Ref sig .tc := ⟨.hbm, 150, rfl⟩
abbrev main_v78 : Ref sig .tc := ⟨.hbm, 151, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x16 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x16 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  shapeCasts_S8x2048_S16384 : S8x2048.ShapeCasts S16384
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x1024_0_1 : S16384x1.BroadcastsInDim S16384x1024 (![0, 1] : Fin 2 → Fin S16384x1024.rank)
  bcast_S_S16384x1024 : S_.BroadcastsInDim S16384x1024 (![] : Fin 0 → Fin S16384x1024.rank)
  bitsLt_bf16_f32 : FTy.bits .bf16 < FTy.bits .f32
  bcast_S16384x1_S16384x256_0_1 : S16384x1.BroadcastsInDim S16384x256 (![0, 1] : Fin 2 → Fin S16384x256.rank)
  bcast_S_S16384x256 : S_.BroadcastsInDim S16384x256 (![] : Fin 0 → Fin S16384x256.rank)
  bcast_S16384x1_S16384x64_0_1 : S16384x1.BroadcastsInDim S16384x64 (![0, 1] : Fin 2 → Fin S16384x64.rank)
  bcast_S_S16384x64 : S_.BroadcastsInDim S16384x64 (![] : Fin 0 → Fin S16384x64.rank)
  bcast_S16384x1_S16384x16_0_1 : S16384x1.BroadcastsInDim S16384x16 (![0, 1] : Fin 2 → Fin S16384x16.rank)
  bcast_S_S16384x16 : S_.BroadcastsInDim S16384x16 (![] : Fin 0 → Fin S16384x16.rank)
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  shapeCasts_S16384x1024_S8x2048x1024 : S16384x1024.ShapeCasts S8x2048x1024
  gather_S20000x1024_S16384x1_S16384x1024_1_0_n_n_0_1_11024_wf : GatherDims.WF S20000x1024 S16384x1 S16384x1024 [1] [0] [] [0] [] 1 ![1, 1024]
  gather_S20000x256_S16384x1_S16384x256_1_0_n_n_0_1_1256_wf : GatherDims.WF S20000x256 S16384x1 S16384x256 [1] [0] [] [0] [] 1 ![1, 256]
  gather_S160000x64_S16384x1_S16384x64_1_0_n_n_0_1_164_wf : GatherDims.WF S160000x64 S16384x1 S16384x64 [1] [0] [] [0] [] 1 ![1, 64]
  gather_S67735x16_S16384x1_S16384x16_1_0_n_n_0_1_116_wf : GatherDims.WF S67735x16 S16384x1 S16384x16 [1] [0] [] [0] [] 1 ![1, 16]
  dot_S1024x1024_S1024x1024_S1024x1024_1_1_0_0_n_n_wf : DotDims.WF S1024x1024 S1024x1024 S1024x1024 [1] [1] [0] [0] [] []
  dot_S1024x256_S1024x256_S1024x1024_1_1_0_0_n_n_wf : DotDims.WF S1024x256 S1024x256 S1024x1024 [1] [1] [0] [0] [] []
  dot_S1024x64_S1024x64_S1024x1024_1_1_0_0_n_n_wf : DotDims.WF S1024x64 S1024x64 S1024x1024 [1] [1] [0] [0] [] []
  dot_S1024x16_S1024x16_S1024x1024_1_1_0_0_n_n_wf : DotDims.WF S1024x16 S1024x16 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .bf16 = 32 ∨ (Rect.block (s := S16384x1024) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S16384x256.size a
  hwx0_1 : ∀ i : grid0.Coords, EltTy.bits .bf16 = 32 ∨ (Rect.block (s := S16384x256) S1024x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x64.size a ≤ S16384x64.size a
  hwx0_2 : ∀ i : grid0.Coords, EltTy.bits .bf16 = 32 ∨ (Rect.block (s := S16384x64) S1024x64.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x16.size a ≤ S16384x16.size a
  hwx0_3 : ∀ i : grid0.Coords, EltTy.bits .bf16 = 32 ∨ (Rect.block (s := S16384x16) S1024x16.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x256.size a ≤ S1024x256.size a
  hwx0_5 : ∀ i : grid0.Coords, EltTy.bits .bf16 = 32 ∨ (Rect.block (s := S1024x256) S1024x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x64.size a ≤ S1024x64.size a
  hwx0_6 : ∀ i : grid0.Coords, EltTy.bits .bf16 = 32 ∨ (Rect.block (s := S1024x64) S1024x64.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x16.size a ≤ S1024x16.size a
  hwx0_7 : ∀ i : grid0.Coords, EltTy.bits .bf16 = 32 ∨ (Rect.block (s := S1024x16) S1024x16.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x1024.size a ≤ S16384x1024.size a
  hwx0_8 : ∀ i : grid0.Coords, EltTy.bits .f32 = 32 ∨ (Rect.block (s := S16384x1024) S1024x1024.size (cc0_transform_8 i) (hinb0_8 i)).WholeWords (EltTy.packing .f32)

variable [Facts₀]

def gather_S20000x1024_S16384x1_S16384x1024_1_0_n_n_0_1_11024 : GatherDims S20000x1024 S16384x1 S16384x1024 where
  offsetDims := [1]
  collapsedSliceDims := [0]
  operandBatchingDims := []
  startIndicesBatchingDims := []
  startIndexMap := [0]
  indexVectorDim := 1
  sliceSizes := ![1, 1024]
  wf := gather_S20000x1024_S16384x1_S16384x1024_1_0_n_n_0_1_11024_wf
def gather_S20000x256_S16384x1_S16384x256_1_0_n_n_0_1_1256 : GatherDims S20000x256 S16384x1 S16384x256 where
  offsetDims := [1]
  collapsedSliceDims := [0]
  operandBatchingDims := []
  startIndicesBatchingDims := []
  startIndexMap := [0]
  indexVectorDim := 1
  sliceSizes := ![1, 256]
  wf := gather_S20000x256_S16384x1_S16384x256_1_0_n_n_0_1_1256_wf
def gather_S160000x64_S16384x1_S16384x64_1_0_n_n_0_1_164 : GatherDims S160000x64 S16384x1 S16384x64 where
  offsetDims := [1]
  collapsedSliceDims := [0]
  operandBatchingDims := []
  startIndicesBatchingDims := []
  startIndexMap := [0]
  indexVectorDim := 1
  sliceSizes := ![1, 64]
  wf := gather_S160000x64_S16384x1_S16384x64_1_0_n_n_0_1_164_wf
def gather_S67735x16_S16384x1_S16384x16_1_0_n_n_0_1_116 : GatherDims S67735x16 S16384x1 S16384x16 where
  offsetDims := [1]
  collapsedSliceDims := [0]
  operandBatchingDims := []
  startIndicesBatchingDims := []
  startIndexMap := [0]
  indexVectorDim := 1
  sliceSizes := ![1, 16]
  wf := gather_S67735x16_S16384x1_S16384x16_1_0_n_n_0_1_116_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf
def dot_S1024x256_S1024x256_S1024x1024_1_1_0_0_n_n : DotDims S1024x256 S1024x256 S1024x1024 where
  lhsContracting := [1]
  rhsContracting := [1]
  lhsNonContracting := [0]
  rhsNonContracting := [0]
  lhsBatch := []
  rhsBatch := []
  wf := dot_S1024x256_S1024x256_S1024x1024_1_1_0_0_n_n_wf
def dot_S1024x64_S1024x64_S1024x1024_1_1_0_0_n_n : DotDims S1024x64 S1024x64 S1024x1024 where
  lhsContracting := [1]
  rhsContracting := [1]
  lhsNonContracting := [0]
  rhsNonContracting := [0]
  lhsBatch := []
  rhsBatch := []
  wf := dot_S1024x64_S1024x64_S1024x1024_1_1_0_0_n_n_wf
def dot_S1024x16_S1024x16_S1024x1024_1_1_0_0_n_n : DotDims S1024x16 S1024x16 S1024x1024 where
  lhsContracting := [1]
  rhsContracting := [1]
  lhsNonContracting := [0]
  rhsNonContracting := [0]
  lhsBatch := []
  rhsBatch := []
  wf := dot_S1024x16_S1024x16_S1024x1024_1_1_0_0_n_n_wf

abbrev win0_0 : Pipeline.Window sig grid0 :=
  Pipeline.Window.ofSpec (Memref.whole main_v18) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v36) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v54) S1024x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v72) S1024x16.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v73) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v74) S1024x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v75) S1024x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v76) S1024x16.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v77) S1024x1024.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S8x2048 : Shape := ⟨2, ![8, 2048]⟩
abbrev S20000x1024 : Shape := ⟨2, ![20000, 1024]⟩
abbrev S20000x256 : Shape := ⟨2, ![20000, 256]⟩
abbrev S160000x64 : Shape := ⟨2, ![160000, 64]⟩
abbrev S67735x16 : Shape := ⟨2, ![67735, 16]⟩
abbrev S1024x1024 : Shape := ⟨2, ![1024, 1024]⟩
abbrev S1024x256 : Shape := ⟨2, ![1024, 256]⟩
abbrev S1024x64 : Shape := ⟨2, ![1024, 64]⟩
abbrev S1024x16 : Shape := ⟨2, ![1024, 16]⟩
abbrev S16384 : Shape := ⟨1, ![16384]⟩
abbrev S_ : Shape := ⟨0, ![]⟩
abbrev S16384x1024 : Shape := ⟨2, ![16384, 1024]⟩
abbrev S16384x1 : Shape := ⟨2, ![16384, 1]⟩
abbrev S16384x256 : Shape := ⟨2, ![16384, 256]⟩
abbrev S256x1024 : Shape := ⟨2, ![256, 1024]⟩
abbrev S16384x64 : Shape := ⟨2, ![16384, 64]⟩
abbrev S64x1024 : Shape := ⟨2, ![64, 1024]⟩
abbrev S16384x16 : Shape := ⟨2, ![16384, 16]⟩
abbrev S16x1024 : Shape := ⟨2, ![16, 1024]⟩
abbrev S8x2048x1024 : Shape := ⟨3, ![8, 2048, 1024]⟩

abbrev nBuf : Space → Nat
  | .hbm => 157
  | .vmem => 0
  | .smem => 0
  | _ => 0

abbrev hbmTy0_0 (i : Nat) : BufTy := match i % 128 with
  | 0 => ⟨S8x2048, .i32⟩
  | 1 => ⟨S20000x1024, .f32⟩
  | 2 => ⟨S20000x256, .f32⟩
  | 3 => ⟨S160000x64, .f32⟩
  | 4 => ⟨S67735x16, .f32⟩
  | 5 => ⟨S1024x1024, .f32⟩
  | 6 => ⟨S1024x256, .f32⟩
  | 7 => ⟨S1024x64, .f32⟩
  | 8 => ⟨S1024x16, .f32⟩
  | 9 => ⟨S16384, .i32⟩
  | 10 => ⟨S_, .f32⟩
  | 11 => ⟨S16384x1024, .f32⟩
  | 12 => ⟨S_, .i32⟩
  | 13 => ⟨S16384, .i32⟩
  | 14 => ⟨S16384, .i1⟩
  | 15 => ⟨S_, .i32⟩
  | 16 => ⟨S16384, .i32⟩
  | 17 => ⟨S16384, .i1⟩
  | 18 => ⟨S16384, .i1⟩
  | 19 => ⟨S_, .i32⟩
  | 20 => ⟨S16384, .i32⟩
  | 21 => ⟨S16384, .i32⟩
  | 22 => ⟨S_, .i32⟩
  | 23 => ⟨S_, .i32⟩
  | 24 => ⟨S_, .i32⟩
  | 25 => ⟨S16384, .i32⟩
  | 26 => ⟨S16384, .i32⟩
  | 27 => ⟨S_, .i32⟩
  | 28 => ⟨S16384, .i32⟩
  | 29 => ⟨S16384, .i32⟩
  | 30 => ⟨S_, .i32⟩
  | 31 => ⟨S16384, .i32⟩
  | 32 => ⟨S16384, .i1⟩
  | 33 => ⟨S_, .i32⟩
  | 34 => ⟨S16384, .i32⟩
  | 35 => ⟨S16384, .i32⟩
  | 36 => ⟨S16384, .i32⟩
  | 37 => ⟨S16384x1, .i32⟩
  | 38 => ⟨S16384x1024, .f32⟩
  | 39 => ⟨S1024x1024, .f32⟩
  | 40 => ⟨S16384x1024, .f32⟩
  | 41 => ⟨S16384x1, .i1⟩
  | 42 => ⟨S_, .f32⟩
  | 43 => ⟨S_, .f32⟩
  | 44 => ⟨S16384x1024, .i1⟩
  | 45 => ⟨S16384x1024, .f32⟩
  | 46 => ⟨S16384x1024, .f32⟩
  | 47 => ⟨S16384x1024, .f32⟩
  | 48 => ⟨S_, .i32⟩
  | 49 => ⟨S16384, .i32⟩
  | 50 => ⟨S16384, .i1⟩
  | 51 => ⟨S_, .i32⟩
  | 52 => ⟨S16384, .i32⟩
  | 53 => ⟨S16384, .i1⟩
  | 54 => ⟨S16384, .i1⟩
  | 55 => ⟨S_, .i32⟩
  | 56 => ⟨S16384, .i32⟩
  | 57 => ⟨S16384, .i32⟩
  | 58 => ⟨S_, .i32⟩
  | 59 => ⟨S_, .i32⟩
  | 60 => ⟨S_, .i32⟩
  | 61 => ⟨S16384, .i32⟩
  | 62 => ⟨S16384, .i32⟩
  | 63 => ⟨S_, .i32⟩
  | 64 => ⟨S16384, .i32⟩
  | 65 => ⟨S16384, .i32⟩
  | 66 => ⟨S_, .i32⟩
  | 67 => ⟨S16384, .i32⟩
  | 68 => ⟨S16384, .i1⟩
  | 69 => ⟨S_, .i32⟩
  | 70 => ⟨S16384, .i32⟩
  | 71 => ⟨S16384, .i32⟩
  | 72 => ⟨S16384, .i32⟩
  | 73 => ⟨S16384x1, .i32⟩
  | 74 => ⟨S16384x256, .f32⟩
  | 75 => ⟨S256x1024, .f32⟩
  | 76 => ⟨S16384x1024, .f32⟩
  | 77 => ⟨S16384x1, .i1⟩
  | 78 => ⟨S_, .f32⟩
  | 79 => ⟨S_, .f32⟩
  | 80 => ⟨S16384x1024, .i1⟩
  | 81 => ⟨S16384x1024, .f32⟩
  | 82 => ⟨S16384x1024, .f32⟩
  | 83 => ⟨S16384x1024, .f32⟩
  | 84 => ⟨S_, .i32⟩
  | 85 => ⟨S16384, .i32⟩
  | 86 => ⟨S16384, .i1⟩
  | 87 => ⟨S_, .i32⟩
  | 88 => ⟨S16384, .i32⟩
  | 89 => ⟨S16384, .i1⟩
  | 90 => ⟨S16384, .i1⟩
  | 91 => ⟨S_, .i32⟩
  | 92 => ⟨S16384, .i32⟩
  | 93 => ⟨S16384, .i32⟩
  | 94 => ⟨S_, .i32⟩
  | 95 => ⟨S_, .i32⟩
  | 96 => ⟨S_, .i32⟩
  | 97 => ⟨S16384, .i32⟩
  | 98 => ⟨S16384, .i32⟩
  | 99 => ⟨S_, .i32⟩
  | 100 => ⟨S16384, .i32⟩
  | 101 => ⟨S16384, .i32⟩
  | 102 => ⟨S_, .i32⟩
  | 103 => ⟨S16384, .i32⟩
  | 104 => ⟨S16384, .i1⟩
  | 105 => ⟨S_, .i32⟩
  | 106 => ⟨S16384, .i32⟩
  | 107 => ⟨S16384, .i32⟩
  | 108 => ⟨S16384, .i32⟩
  | 109 => ⟨S16384x1, .i32⟩
  | 110 => ⟨S16384x64, .f32⟩
  | 111 => ⟨S64x1024, .f32⟩
  | 112 => ⟨S16384x1024, .f32⟩
  | 113 => ⟨S16384x1, .i1⟩
  | 114 => ⟨S_, .f32⟩
  | 115 => ⟨S_, .f32⟩
  | 116 => ⟨S16384x1024, .i1⟩
  | 117 => ⟨S16384x1024, .f32⟩
  | 118 => ⟨S16384x1024, .f32⟩
  | 119 => ⟨S16384x1024, .f32⟩
  | 120 => ⟨S_, .i32⟩
  | 121 => ⟨S16384, .i32⟩
  | 122 => ⟨S16384, .i1⟩
  | 123 => ⟨S_, .i32⟩
  | 124 => ⟨S16384, .i32⟩
  | 125 => ⟨S16384, .i1⟩
  | 126 => ⟨S16384, .i1⟩
  | 127 => ⟨S_, .i32⟩
  | _ => ⟨S8x2048, .i32⟩

abbrev hbmTy0_1 (i : Nat) : BufTy := match i % 128 with
  | 0 => ⟨S16384, .i32⟩
  | 1 => ⟨S16384, .i32⟩
  | 2 => ⟨S_, .i32⟩
  | 3 => ⟨S_, .i32⟩
  | 4 => ⟨S_, .i32⟩
  | 5 => ⟨S16384, .i32⟩
  | 6 => ⟨S16384, .i32⟩
  | 7 => ⟨S_, .i32⟩
  | 8 => ⟨S16384, .i32⟩
  | 9 => ⟨S16384, .i32⟩
  | 10 => ⟨S_, .i32⟩
  | 11 => ⟨S16384, .i32⟩
  | 12 => ⟨S16384, .i1⟩
  | 13 => ⟨S_, .i32⟩
  | 14 => ⟨S16384, .i32⟩
  | 15 => ⟨S16384, .i32⟩
  | 16 => ⟨S16384, .i32⟩
  | 17 => ⟨S16384x1, .i32⟩
  | 18 => ⟨S16384x16, .f32⟩
  | 19 => ⟨S16x1024, .f32⟩
  | 20 => ⟨S16384x1024, .f32⟩
  | 21 => ⟨S16384x1, .i1⟩
  | 22 => ⟨S_, .f32⟩
  | 23 => ⟨S_, .f32⟩
  | 24 => ⟨S16384x1024, .i1⟩
  | 25 => ⟨S16384x1024, .f32⟩
  | 26 => ⟨S16384x1024, .f32⟩
  | 27 => ⟨S16384x1024, .f32⟩
  | 28 => ⟨S8x2048x1024, .f32⟩
  | _ => ⟨S8x2048, .i32⟩

abbrev hbmTy (i : Nat) : BufTy := match i / 128 with
  | 0 => hbmTy0_0 i
  | 1 => hbmTy0_1 i
  | _ => ⟨S8x2048, .i32⟩

abbrev bufTy : (tb : Table) → Fin (tcTables nBuf tb) → BufTy
  | .hbm, ⟨i, _⟩ => hbmTy i
  | _, _ => ⟨S8x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_c : Ref sig .tc := ⟨.hbm, 12, rfl⟩
abbrev main_v2 : Ref sig .tc := ⟨.hbm, 13, rfl⟩
abbrev main_v3 : Ref sig .tc := ⟨.hbm, 14, rfl⟩
abbrev main_c_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c_1 : Ref sig .tc := ⟨.hbm, 19, rfl⟩
abbrev main_v7 : Ref sig .tc := ⟨.hbm, 20, rfl⟩
abbrev main_v8 : Ref sig .tc := ⟨.hbm, 21, rfl⟩
abbrev main_c_2 : Ref sig .tc := ⟨.hbm, 22, rfl⟩
abbrev main_c_3 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_v9 : Ref sig .tc := ⟨.hbm, 29, rfl⟩
abbrev main_c_4 : Ref sig .tc := ⟨.hbm, 30, rfl⟩
abbrev main_v10 : Ref sig .tc := ⟨.hbm, 31, rfl⟩
abbrev main_v11 : Ref sig .tc := ⟨.hbm, 32, rfl⟩
abbrev main_c_5 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_cst_6 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_v20 : Ref sig .tc := ⟨.hbm, 46, rfl⟩
abbrev main_v21 : Ref sig .tc := ⟨.hbm, 47, rfl⟩
abbrev main_c_7 : Ref sig .tc := ⟨.hbm, 48, rfl⟩
abbrev main_v22 : Ref sig .tc := ⟨.hbm, 49, rfl⟩
abbrev main_v23 : Ref sig .tc := ⟨.hbm, 50, rfl⟩
abbrev main_c_8 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_c_9 : Ref sig .tc := ⟨.hbm, 55, rfl⟩
abbrev main_v27 : Ref sig .tc := ⟨.hbm, 56, rfl⟩
abbrev main_v28 : Ref sig .tc := ⟨.hbm, 57, rfl⟩
abbrev main_c_10 : Ref sig .tc := ⟨.hbm, 58, rfl⟩
abbrev main_c_11 : Ref sig .tc := ⟨.hbm, 59, rfl⟩
abbrev main_call2_v0 : Ref sig .tc := ⟨.hbm, 60, rfl⟩
abbrev main_call2_v1 : Ref sig .tc := ⟨.hbm, 61, rfl⟩
abbrev main_call2_v2 : Ref sig .tc := ⟨.hbm, 62, rfl⟩
abbrev main_call2_v3 : Ref sig .tc := ⟨.hbm, 63, rfl⟩
abbrev main_call2_v4 : Ref sig .tc := ⟨.hbm, 64, rfl⟩
abbrev main_v29 : Ref sig .tc := ⟨.hbm, 65, rfl⟩
abbrev main_c_12 : Ref sig .tc := ⟨.hbm, 66, rfl⟩
abbrev main_v30 : Ref sig .tc := ⟨.hbm, 67, rfl⟩
abbrev main_v31 : Ref sig .tc := ⟨.hbm, 68, rfl⟩
abbrev main_c_13 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_cst_14 : Ref sig .tc := ⟨.hbm, 78, rfl⟩
abbrev main_call3_v0 : Ref sig .tc := ⟨.hbm, 79, rfl⟩
abbrev main_call3_v1 : Ref sig .tc := ⟨.hbm, 80, rfl⟩
abbrev main_call3_v2 : Ref sig .tc := ⟨.hbm, 81, rfl⟩
abbrev main_v40 : Ref sig .tc := ⟨.hbm, 82, rfl⟩
abbrev main_v41 : Ref sig .tc := ⟨.hbm, 83, rfl⟩
abbrev main_c_15 : Ref sig .tc := ⟨.hbm, 84, rfl⟩
abbrev main_v42 : Ref sig .tc := ⟨.hbm, 85, rfl⟩
abbrev main_v43 : Ref sig .tc := ⟨.hbm, 86, rfl⟩
abbrev main_c_16 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_c_17 : Ref sig .tc := ⟨.hbm, 91, rfl⟩
abbrev main_v47 : Ref sig .tc := ⟨.hbm, 92, rfl⟩
abbrev main_v48 : Ref sig .tc := ⟨.hbm, 93, rfl⟩
abbrev main_c_18 : Ref sig .tc := ⟨.hbm, 94, rfl⟩
abbrev main_c_19 : Ref sig .tc := ⟨.hbm, 95, rfl⟩
abbrev main_call4_v0 : Ref sig .tc := ⟨.hbm, 96, rfl⟩
abbrev main_call4_v1 : Ref sig .tc := ⟨.hbm, 97, rfl⟩
abbrev main_call4_v2 : Ref sig .tc := ⟨.hbm, 98, rfl⟩
abbrev main_call4_v3 : Ref sig .tc := ⟨.hbm, 99, rfl⟩
abbrev main_call4_v4 : Ref sig .tc := ⟨.hbm, 100, rfl⟩
abbrev main_v49 : Ref sig .tc := ⟨.hbm, 101, rfl⟩
abbrev main_c_20 : Ref sig .tc := ⟨.hbm, 102, rfl⟩
abbrev main_v50 : Ref sig .tc := ⟨.hbm, 103, rfl⟩
abbrev main_v51 : Ref sig .tc := ⟨.hbm, 104, rfl⟩
abbrev main_c_21 : Ref sig .tc := ⟨.hbm, 105, rfl⟩
abbrev main_v52 : Ref sig .tc := ⟨.hbm, 106, rfl⟩
abbrev main_v53 : Ref sig .tc := ⟨.hbm, 107, rfl⟩
abbrev main_v54 : Ref sig .tc := ⟨.hbm, 108, rfl⟩
abbrev main_v55 : Ref sig .tc := ⟨.hbm, 109, rfl⟩
abbrev main_v56 : Ref sig .tc := ⟨.hbm, 110, rfl⟩
abbrev main_v57 : Ref sig .tc := ⟨.hbm, 111, rfl⟩
abbrev main_v58 : Ref sig .tc := ⟨.hbm, 112, rfl⟩
abbrev main_v59 : Ref sig .tc := ⟨.hbm, 113, rfl⟩
abbrev main_cst_22 : Ref sig .tc := ⟨.hbm, 114, rfl⟩
abbrev main_call5_v0 : Ref sig .tc := ⟨.hbm, 115, rfl⟩
abbrev main_call5_v1 : Ref sig .tc := ⟨.hbm, 116, rfl⟩
abbrev main_call5_v2 : Ref sig .tc := ⟨.hbm, 117, rfl⟩
abbrev main_v60 : Ref sig .tc := ⟨.hbm, 118, rfl⟩
abbrev main_v61 : Ref sig .tc := ⟨.hbm, 119, rfl⟩
abbrev main_c_23 : Ref sig .tc := ⟨.hbm, 120, rfl⟩
abbrev main_v62 : Ref sig .tc := ⟨.hbm, 121, rfl⟩
abbrev main_v63 : Ref sig .tc := ⟨.hbm, 122, rfl⟩
abbrev main_c_24 : Ref sig .tc := ⟨.hbm, 123, rfl⟩
abbrev main_v64 : Ref sig .tc := ⟨.hbm, 124, rfl⟩
abbrev main_v65 : Ref sig .tc := ⟨.hbm, 125, rfl⟩
abbrev main_v66 : Ref sig .tc := ⟨.hbm, 126, rfl⟩
abbrev main_c_25 : Ref sig .tc := ⟨.hbm, 127, rfl⟩
abbrev main_v67 : Ref sig .tc := ⟨.hbm, 128, rfl⟩
abbrev main_v68 : Ref sig .tc := ⟨.hbm, 129, rfl⟩
abbrev main_c_26 : Ref sig .tc := ⟨.hbm, 130, rfl⟩
abbrev main_c_27 : Ref sig .tc := ⟨.hbm, 131, rfl⟩
abbrev main_call6_v0 : Ref sig .tc := ⟨.hbm, 132, rfl⟩
abbrev main_call6_v1 : Ref sig .tc := ⟨.hbm, 133, rfl⟩
abbrev main_call6_v2 : Ref sig .tc := ⟨.hbm, 134, rfl⟩
abbrev main_call6_v3 : Ref sig .tc := ⟨.hbm, 135, rfl⟩
abbrev main_call6_v4 : Ref sig .tc := ⟨.hbm, 136, rfl⟩
abbrev main_v69 : Ref sig .tc := ⟨.hbm, 137, rfl⟩
abbrev main_c_28 : Ref sig .tc := ⟨.hbm, 138, rfl⟩
abbrev main_v70 : Ref sig .tc := ⟨.hbm, 139, rfl⟩
abbrev main_v71 : Ref sig .tc := ⟨.hbm, 140, rfl⟩
abbrev main_c_29 : Ref sig .tc := ⟨.hbm, 141, rfl⟩
abbrev main_v72 : Ref sig .tc := ⟨.hbm, 142, rfl⟩
abbrev main_v73 : Ref sig .tc := ⟨.hbm, 143, rfl⟩
abbrev main_v74 : Ref sig .tc := ⟨.hbm, 144, rfl⟩
abbrev main_v75 : Ref sig .tc := ⟨.hbm, 145, rfl⟩
abbrev main_v76 : Ref sig .tc := ⟨.hbm, 146, rfl⟩
abbrev main_v77 : Ref sig .tc := ⟨.hbm, 147, rfl⟩
abbrev main_v78 : Ref sig .tc := ⟨.hbm, 148, rfl⟩
abbrev main_v79 : Ref sig .tc := ⟨.hbm, 149, rfl⟩
abbrev main_cst_30 : Ref sig .tc := ⟨.hbm, 150, rfl⟩
abbrev main_call7_v0 : Ref sig .tc := ⟨.hbm, 151, rfl⟩
abbrev main_call7_v1 : Ref sig .tc := ⟨.hbm, 152, rfl⟩
abbrev main_call7_v2 : Ref sig .tc := ⟨.hbm, 153, rfl⟩
abbrev main_v80 : Ref sig .tc := ⟨.hbm, 154, rfl⟩
abbrev main_v81 : Ref sig .tc := ⟨.hbm, 155, rfl⟩
abbrev main_v82 : Ref sig .tc := ⟨.hbm, 156, rfl⟩

abbrev nD : Nat := 1
abbrev τ : Topo := Topo.v7x

variable {F : FTy → Type} [FloatOps F]

class Facts₀ : Prop where
  shapeCasts_S8x2048_S16384 : S8x2048.ShapeCasts S16384
  bcast_S_S16384x1024 : S_.BroadcastsInDim S16384x1024 (![] : Fin 0 → Fin S16384x1024.rank)
  bcast_S_S16384 : S_.BroadcastsInDim S16384 (![] : Fin 0 → Fin S16384.rank)
  bcast_S16384_S16384x1_0 : S16384.BroadcastsInDim S16384x1 (![0] : Fin 1 → Fin S16384x1.rank)
  transposes_S1024x1024_S1024x1024_1_0 : S1024x1024.Transposes [1, 0] S1024x1024
  bcast_S16384x1_S16384x1024_0_1 : S16384x1.BroadcastsInDim S16384x1024 (![0, 1] : Fin 2 → Fin S16384x1024.rank)
  transposes_S1024x256_S256x1024_1_0 : S1024x256.Transposes [1, 0] S256x1024
  transposes_S1024x64_S64x1024_1_0 : S1024x64.Transposes [1, 0] S64x1024
  transposes_S1024x16_S16x1024_1_0 : S1024x16.Transposes [1, 0] S16x1024
  shapeCasts_S16384x1024_S8x2048x1024 : S16384x1024.ShapeCasts S8x2048x1024
  gather_S20000x1024_S16384x1_S16384x1024_1_0_n_n_0_1_11024_wf : GatherDims.WF S20000x1024 S16384x1 S16384x1024 [1] [0] [] [0] [] 1 ![1, 1024]
  dot_S16384x1024_S1024x1024_S16384x1024_1_0_0_1_n_n_wf : DotDims.WF S16384x1024 S1024x1024 S16384x1024 [1] [0] [0] [1] [] []
  gather_S20000x256_S16384x1_S16384x256_1_0_n_n_0_1_1256_wf : GatherDims.WF S20000x256 S16384x1 S16384x256 [1] [0] [] [0] [] 1 ![1, 256]
  dot_S16384x256_S256x1024_S16384x1024_1_0_0_1_n_n_wf : DotDims.WF S16384x256 S256x1024 S16384x1024 [1] [0] [0] [1] [] []
  gather_S160000x64_S16384x1_S16384x64_1_0_n_n_0_1_164_wf : GatherDims.WF S160000x64 S16384x1 S16384x64 [1] [0] [] [0] [] 1 ![1, 64]
  dot_S16384x64_S64x1024_S16384x1024_1_0_0_1_n_n_wf : DotDims.WF S16384x64 S64x1024 S16384x1024 [1] [0] [0] [1] [] []
  gather_S67735x16_S16384x1_S16384x16_1_0_n_n_0_1_116_wf : GatherDims.WF S67735x16 S16384x1 S16384x16 [1] [0] [] [0] [] 1 ![1, 16]
  dot_S16384x16_S16x1024_S16384x1024_1_0_0_1_n_n_wf : DotDims.WF S16384x16 S16x1024 S16384x1024 [1] [0] [0] [1] [] []

variable [Facts₀]

def gather_S20000x1024_S16384x1_S16384x1024_1_0_n_n_0_1_11024 : GatherDims S20000x1024 S16384x1 S16384x1024 where
  offsetDims := [1]
  collapsedSliceDims := [0]
  operandBatchingDims := []
  startIndicesBatchingDims := []
  startIndexMap := [0]
  indexVectorDim := 1
  sliceSizes := ![1, 1024]
  wf := gather_S20000x1024_S16384x1_S16384x1024_1_0_n_n_0_1_11024_wf
def dot_S16384x1024_S1024x1024_S16384x1024_1_0_0_1_n_n : DotDims S16384x1024 S1024x1024 S16384x1024 where
  lhsContracting := [1]
  rhsContracting := [0]
  lhsNonContracting := [0]
  rhsNonContracting := [1]
  lhsBatch := []
  rhsBatch := []
  wf := dot_S16384x1024_S1024x1024_S16384x1024_1_0_0_1_n_n_wf
def gather_S20000x256_S16384x1_S16384x256_1_0_n_n_0_1_1256 : GatherDims S20000x256 S16384x1 S16384x256 where
  offsetDims := [1]
  collapsedSliceDims := [0]
  operandBatchingDims := []
  startIndicesBatchingDims := []
  startIndexMap := [0]
  indexVectorDim := 1
  sliceSizes := ![1, 256]
  wf := gather_S20000x256_S16384x1_S16384x256_1_0_n_n_0_1_1256_wf
def dot_S16384x256_S256x1024_S16384x1024_1_0_0_1_n_n : DotDims S16384x256 S256x1024 S16384x1024 where
  lhsContracting := [1]
  rhsContracting := [0]
  lhsNonContracting := [0]
  rhsNonContracting := [1]
  lhsBatch := []
  rhsBatch := []
  wf := dot_S16384x256_S256x1024_S16384x1024_1_0_0_1_n_n_wf
def gather_S160000x64_S16384x1_S16384x64_1_0_n_n_0_1_164 : GatherDims S160000x64 S16384x1 S16384x64 where
  offsetDims := [1]
  collapsedSliceDims := [0]
  operandBatchingDims := []
  startIndicesBatchingDims := []
  startIndexMap := [0]
  indexVectorDim := 1
  sliceSizes := ![1, 64]
  wf := gather_S160000x64_S16384x1_S16384x64_1_0_n_n_0_1_164_wf
def dot_S16384x64_S64x1024_S16384x1024_1_0_0_1_n_n : DotDims S16384x64 S64x1024 S16384x1024 where
  lhsContracting := [1]
  rhsContracting := [0]
  lhsNonContracting := [0]
  rhsNonContracting := [1]
  lhsBatch := []
  rhsBatch := []
  wf := dot_S16384x64_S64x1024_S16384x1024_1_0_0_1_n_n_wf
def gather_S67735x16_S16384x1_S16384x16_1_0_n_n_0_1_116 : GatherDims S67735x16 S16384x1 S16384x16 where
  offsetDims := [1]
  collapsedSliceDims := [0]
  operandBatchingDims := []
  startIndicesBatchingDims := []
  startIndexMap := [0]
  indexVectorDim := 1
  sliceSizes := ![1, 16]
  wf := gather_S67735x16_S16384x1_S16384x16_1_0_n_n_0_1_116_wf
def dot_S16384x16_S16x1024_S16384x1024_1_0_0_1_n_n : DotDims S16384x16 S16x1024 S16384x1024 where
  lhsContracting := [1]
  rhsContracting := [0]
  lhsNonContracting := [0]
  rhsNonContracting := [1]
  lhsBatch := []
  rhsBatch := []
  wf := dot_S16384x16_S16x1024_S16384x1024_1_0_0_1_n_n_wf

class Facts : Prop extends Facts₀ where

variable [Facts]
-- ==== Proof.LibDotT.lean ====
/-
  A matrix product against a transposed right operand, read at an entry.

  For dimension numbers that contract axis 1 of BOTH operands, keep axis 0 of both, and have no batch axes
  (l [M, K] against r [N, K], result [M, N]: the product l rᵀ), the operand indices at the result entry (p, q) and
  contraction position k are (p, k) and (q, k). So, at the ideal values, a `tpu.matmul` into the zero accumulator is
  the sum  ∑ k, l (p, k) * r (q, k)  over the extended reals. Stated for ANY record with those six lists, at any
  extents and element formats.
-/
import Idealize.ShloMosaic.Lib.ValueIdx
import Idealize.ShloMosaic.PureOps.Ideal.Laws

noncomputable section

namespace Idealize.ShloMosaic.DotT

open Idealize.ShloMosaic Idealize.ShloMosaic.ValueIdx

variable {M K N : Nat} (d : DotDims ⟨2, ![M, K]⟩ ⟨2, ![N, K]⟩ ⟨2, ![M, N]⟩)

/-- Two reads of an index at positions that are equal numbers agree. -/
private theorem val_congr {n : Nat} {sz : Fin n → Nat} (j : (a : Fin n) → Fin (sz a)) :
    ∀ (a b : Nat) (ha : a < n) (hb : b < n), a = b → (j ⟨a, ha⟩).val = (j ⟨b, hb⟩).val :=
  fun a b ha hb h => by subst h; rfl

/-- The left operand's row is the result's row. -/
theorem lhs_row (hln : d.lhsNonContracting = [0]) (hlb : d.lhsBatch = [])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  simp only [Fin.val_cast]
  exact val_congr j _ _ _ _ (by simp [hlb, hln])

/-- The left operand's column is the contraction position. -/
theorem lhs_col (hlc : d.lhsContracting = [1]) (j : (⟨2, ![M, N]⟩ : Shape).Idx) (k : d.contr.Idx) :
    (d.lhsIdx j k 1).val = (k ⟨0, by rw [d.rank_contr, hlc]; exact Nat.one_pos⟩).val :=
  d.lhsIdx_val_of_single hlc j k

/-- The right operand's row is the result's column. -/
theorem rhs_row (hln : d.lhsNonContracting = [0]) (hrn : d.rhsNonContracting = [0]) (hlb : d.lhsBatch = [])
    (hrb : d.rhsBatch = []) (j : (⟨2, ![M, N]⟩ : Shape).Idx) (k : d.contr.Idx) : (d.rhsIdx j k 0).val = (j 1).val := by
  unfold DotDims.rhsIdx
  rw [dif_neg (by rw [hrb]; exact List.not_mem_nil), dif_pos (by rw [hrn]; exact List.mem_singleton.mpr rfl)]
  simp only [Fin.val_cast]
  exact val_congr j _ _ _ _ (by simp [hlb, hln, hrn])

/-- The right operand's column is the contraction position. -/
theorem rhs_col (hrc : d.rhsContracting = [1]) (j : (⟨2, ![M, N]⟩ : Shape).Idx) (k : d.contr.Idx) :
    (d.rhsIdx j k 1).val = (k ⟨0, by rw [d.rank_contr, ← d.length_contracting, hrc]; exact Nat.one_pos⟩).val :=
  d.rhsIdx_val_of_single hrc j k

/-- A `tpu.matmul` of such a record into the zero accumulator, at the ideal values and at entry (p, q): the sum over
    the contraction positions of the products of the left operand's row p and the right operand's row q. -/
theorem matmul_zero_apply {φ₁ φ₂ : FTy}
    (hlc : d.lhsContracting = [1]) (hrc : d.rhsContracting = [1]) (hln : d.lhsNonContracting = [0])
    (hrn : d.rhsNonContracting = [0]) (hlb : d.lhsBatch = []) (hrb : d.rhsBatch = [])
    (hr : d.contr.rank = 1) (hs : d.contr.size ⟨0, by omega⟩ = K)
    (prec : Option ContractPrecision) (l : FVec Ideal ⟨2, ![M, K]⟩ φ₁) (r : FVec Ideal ⟨2, ![N, K]⟩ φ₂)
    (p : Fin M) (q : Fin N) :
    FloatOps.matmul d prec l r (constant (F := Ideal) ⟨2, ![M, N]⟩ .f32 0x00000000#32) (ix2 p q)
      = ∑ k : Fin K, l (ix2 p k) * r (ix2 q k) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact lhs_row d hln hlb _ _
    | ⟨1, _⟩ => exact (lhs_col d hlc _ _).trans hk)
  have er : d.rhsIdx (ix2 p q) ((contrEquiv1 d K hr hs).symm k) = ix2 q k := funext fun a => Fin.ext (by
    match a with
    | ⟨0, _⟩ => exact rhs_row d hln hrn hlb hrb _ _
    | ⟨1, _⟩ => exact (rhs_col d hrc _ _).trans hk)
  rw [el, er]

end Idealize.ShloMosaic.DotT

end
-- ==== Proof.KernelBody.lean ====
/-
  What one grid point leaves in the output block.

  The body stores the first bucket's product, then three times reads the block back, adds the next bucket's product and
  stores the sum. Each read-back follows a store of the whole block, so it reads that store's value; the block ends at

      ((e0 · p0ᵀ + e1 · p1ᵀ) + e2 · p2ᵀ) + e3 · p3ᵀ,

  where e_b is the point's block of bucket b's masked rows and p_b the bucket's whole matrix, each product contracting
  the feature axis of both operands: entry (r, j) is  Σ_q e_b[r, q] · p_b[j, q].
-/
import proofs.«403044_j22531398435527_3_alg».proof.Proof.Gen.KernelIdeal.Frame
import proofs.«403044_j22531398435527_3_alg».proof.Proof.LibDotT
import Idealize.ShloMosaic.Lib.Pipeline.Value
import Idealize.ShloMosaic.Lib.ValueIdx
import Idealize.ShloMosaic.Lib.Tactic

noncomputable section

open scoped BigOperators

open Idealize.ShloMosaic Idealize.ShloMosaic.TcCoe Idealize.SL.Sem

namespace Cert.KernelIdeal.Body

open Cert.KernelIdeal Cert.KernelIdeal.Gen Idealize.ShloMosaic.ValueIdx

theorem hz : (![0, 0] : Fin 2 → Nat) = fun _ => 0 := funext fun a => by fin_cases a <;> rfl

/-- A load of the whole block, after stores of which the LAST wrote the whole block, reads that store's value,
    whatever the earlier stores were. -/
theorem readCov_cons_whole {Val : EltTy → Type} [∀ e, Nonempty (Val e)] {S : Shape} {e : EltTy} {sig : RefSig} {κ : Kind}
    {sp : Space} (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons_self, View.mem_set_unit_zero h inb y⟩),
    View.canon_cons_unit_zero h, View.ld_unit_zero h]

section AnyFloats

variable {F : FTy → Type} [FloatOps F]

/-- The output block after the body, from the eight input blocks: the last store's value, whose read-back is the third
    store's value, and so on down to the first store. -/
theorem out_eq (c : Dev nD) (i : grid0.Coords) (arg1 : Memref sig .tc .vmem S1024x1024 .bf16) (harg1 : arg1.IsWhole) (arg2 : Memref sig .tc .vmem S1024x256 .bf16) (harg2 : arg2.IsWhole) (arg3 : Memref sig .tc .vmem S1024x64 .bf16) (harg3 : arg3.IsWhole) (arg4 : Memref sig .tc .vmem S1024x16 .bf16) (harg4 : arg4.IsWhole) (arg5 : Memref sig .tc .vmem S1024x1024 .bf16) (harg5 : arg5.IsWhole) (arg6 : Memref sig .tc .vmem S1024x256 .bf16) (harg6 : arg6.IsWhole) (arg7 : Memref sig .tc .vmem S1024x64 .bf16) (harg7 : arg7.IsWhole) (arg8 : Memref sig .tc .vmem S1024x16 .bf16) (harg8 : arg8.IsWhole) (arg9 : Memref sig .tc .vmem S1024x1024 .f32) (harg9 : arg9.IsWhole)
    (x0 : Vec F S1024x1024 .bf16) (x1 : Vec F S1024x256 .bf16) (x2 : Vec F S1024x64 .bf16) (x3 : Vec F S1024x16 .bf16) (x4 : Vec F S1024x1024 .bf16) (x5 : Vec F S1024x256 .bf16) (x6 : Vec F S1024x64 .bf16) (x7 : Vec F S1024x16 .bf16) :
    out0_A_8 (F := F) c i arg1 harg1 arg2 harg2 arg3 harg3 arg4 harg4 arg5 harg5 arg6 harg6 arg7 harg7 arg8 harg8 arg9 harg9 x0 x1 x2 x3 x4 x5 x6 x7
      = k0_pay1 (k0_pay5 x3) x7 (k0_pay4 x2 x6 (k0_pay3 x1 x5 (k0_pay2 x0 x4))) := by
  unfold out0_A_8
  rw [View.read_writes_eq_canon _ _ _ (cover0_A_8 c i arg1 harg1 arg2 harg2 arg3 harg3 arg4 harg4 arg5 harg5 arg6 harg6 arg7 harg7 arg8 harg8 arg9 harg9 x0 x1 x2 x3 x4 x5 x6 x7)]
  unfold kernelRun0_A
  dsimp only
  sl_unfold_words
  rw [View.canon_cons_unit_zero (S := S1024x1024) hz]
  simp only [View.readAt_eq_ld, harg1.read_unread, harg2.read_unread, harg3.read_unread, harg4.read_unread,
    harg5.read_unread, harg6.read_unread, harg7.read_unread, harg8.read_unread,
    View.ld_unit_zero (S := S1024x1024) hz, View.ld_unit_zero (S := S1024x256) hz, View.ld_unit_zero (S := S1024x64) hz,
    View.ld_unit_zero (S := S1024x16) hz, readCov_cons_whole (S := S1024x1024) _ hz]

end AnyFloats

/-- The block's entry (r, j) at the ideal values: the four buckets' row-by-row products, added in the body's order. -/
theorem pay_apply (x0 : Vec Ideal S1024x1024 .bf16) (x1 : Vec Ideal S1024x256 .bf16) (x2 : Vec Ideal S1024x64 .bf16)
    (x3 : Vec Ideal S1024x16 .bf16) (x4 : Vec Ideal S1024x1024 .bf16) (x5 : Vec Ideal S1024x256 .bf16)
    (x6 : Vec Ideal S1024x64 .bf16) (x7 : Vec Ideal S1024x16 .bf16) (r j : Fin 1024) :
    k0_pay1 (F := Ideal) (k0_pay5 x3) x7 (k0_pay4 x2 x6 (k0_pay3 x1 x5 (k0_pay2 x0 x4))) (ix2 r j)
      = (∑ q : Fin 1024, x0 (ix2 r q) * x4 (ix2 j q)) + (∑ q : Fin 256, x1 (ix2 r q) * x5 (ix2 j q))
        + (∑ q : Fin 64, x2 (ix2 r q) * x6 (ix2 j q)) + (∑ q : Fin 16, x3 (ix2 r q) * x7 (ix2 j q)) := by
  unfold k0_pay1 k0_pay5 k0_pay4 k0_pay3 k0_pay2
  simp only [shapeCast_self, Idealize.ShloMosaic.matmul]
  rw [addf_apply, addf_apply, addf_apply,
    DotT.matmul_zero_apply dot_S1024x1024_S1024x1024_S1024x1024_1_1_0_0_n_n rfl rfl rfl rfl rfl rfl rfl rfl,
    DotT.matmul_zero_apply dot_S1024x256_S1024x256_S1024x1024_1_1_0_0_n_n rfl rfl rfl rfl rfl rfl rfl rfl,
    DotT.matmul_zero_apply dot_S1024x64_S1024x64_S1024x1024_1_1_0_0_n_n rfl rfl rfl rfl rfl rfl rfl rfl,
    DotT.matmul_zero_apply dot_S1024x16_S1024x16_S1024x1024_1_1_0_0_n_n rfl rfl rfl rfl rfl rfl rfl rfl]

end Cert.KernelIdeal.Body

end
-- ==== Proof.Spec.lean ====
/-
  The adaptive embedding, entry by entry.

  The vocabulary is cut into four buckets, each with its own table and its own projection matrix. A token whose id lies
  in bucket b contributes the row of that bucket's table it looks up, projected by the bucket's matrix; the other buckets
  contribute nothing. With k_b the bucket's mask over the tokens, g_b the looked-up rows (one per token, looked up at a
  clipped position whether or not the token is in the bucket) and p_b the matrix (one row per output feature):

      out[n, j] = Σ_b [k_b n] · Σ_q g_b[n, q] · p_b[j, q].

  Two arrangements of one bucket's term are met. Either the mask chooses between the projected row and 0, or the mask
  first replaces the looked-up row by a zero row and the zero row is projected. They agree on every extended real, the
  infinities included, because 0 · x = 0 there for every x; and a sum started from 0 is the sum, because 0 + x = x.
  Nothing here needs the inputs to be finite.
-/
import Idealize.ShloMosaic.Lib.ValueIdx

noncomputable section

open scoped BigOperators

namespace AdaptiveEmbedding

open Idealize.ShloMosaic Idealize.ShloMosaic.ValueIdx

variable {N J K K0 K1 K2 K3 : Nat}

/-- One bucket's term at token `n` and output feature `j`: the looked-up row against row `j` of the matrix if the
    token is in the bucket, else 0. -/
def bucketTerm (k : IVec ⟨1, ![N]⟩ 1) (g : ((⟨2, ![N, K]⟩ : Shape).Idx → EReal)) (p : ((⟨2, ![J, K]⟩ : Shape).Idx → EReal))
    (n : Fin N) (j : Fin J) : EReal :=
  Scalar.select (k (ix1 n)) (∑ q : Fin K, g (ix2 n q) * p (ix2 j q)) 0

/-- The embedding: the four buckets' terms added in order. -/
def embed (k0 : IVec ⟨1, ![N]⟩ 1) (g0 : ((⟨2, ![N, K0]⟩ : Shape).Idx → EReal)) (p0 : ((⟨2, ![J, K0]⟩ : Shape).Idx → EReal))
    (k1 : IVec ⟨1, ![N]⟩ 1) (g1 : ((⟨2, ![N, K1]⟩ : Shape).Idx → EReal)) (p1 : ((⟨2, ![J, K1]⟩ : Shape).Idx → EReal))
    (k2 : IVec ⟨1, ![N]⟩ 1) (g2 : ((⟨2, ![N, K2]⟩ : Shape).Idx → EReal)) (p2 : ((⟨2, ![J, K2]⟩ : Shape).Idx → EReal))
    (k3 : IVec ⟨1, ![N]⟩ 1) (g3 : ((⟨2, ![N, K3]⟩ : Shape).Idx → EReal)) (p3 : ((⟨2, ![J, K3]⟩ : Shape).Idx → EReal)) :
    ((⟨2, ![N, J]⟩ : Shape).Idx → EReal) := fun i =>
  bucketTerm k0 g0 p0 (i 0) (i 1) + bucketTerm k1 g1 p1 (i 0) (i 1) + bucketTerm k2 g2 p2 (i 0) (i 1)
    + bucketTerm k3 g3 p3 (i 0) (i 1)

/-- The embedding at the entry (n, j). -/
theorem embed_apply (k0 : IVec ⟨1, ![N]⟩ 1) (g0 : ((⟨2, ![N, K0]⟩ : Shape).Idx → EReal)) (p0 : ((⟨2, ![J, K0]⟩ : Shape).Idx → EReal))
    (k1 : IVec ⟨1, ![N]⟩ 1) (g1 : ((⟨2, ![N, K1]⟩ : Shape).Idx → EReal)) (p1 : ((⟨2, ![J, K1]⟩ : Shape).Idx → EReal))
    (k2 : IVec ⟨1, ![N]⟩ 1) (g2 : ((⟨2, ![N, K2]⟩ : Shape).Idx → EReal)) (p2 : ((⟨2, ![J, K2]⟩ : Shape).Idx → EReal))
    (k3 : IVec ⟨1, ![N]⟩ 1) (g3 : ((⟨2, ![N, K3]⟩ : Shape).Idx → EReal)) (p3 : ((⟨2, ![J, K3]⟩ : Shape).Idx → EReal)) (n : Fin N) (j : Fin J) :
    embed k0 g0 p0 k1 g1 p1 k2 g2 p2 k3 g3 p3 (ix2 n j)
      = bucketTerm k0 g0 p0 n j + bucketTerm k1 g1 p1 n j + bucketTerm k2 g2 p2 n j + bucketTerm k3 g3 p3 n j := rfl

/-- Masking the looked-up row before projecting it: if row `n` of `e` is row `n` of `g` where the token is in the
    bucket and a zero row elsewhere, then projecting `e`'s row gives the bucket's term (0 · x = 0 on every extended
    real, so the zero row projects to 0 whatever the matrix holds). -/
theorem sum_masked_row (k : IVec ⟨1, ![N]⟩ 1) (g : ((⟨2, ![N, K]⟩ : Shape).Idx → EReal)) (e : ((⟨2, ![N, K]⟩ : Shape).Idx → EReal))
    (p : ((⟨2, ![J, K]⟩ : Shape).Idx → EReal)) (n : Fin N) (j : Fin J)
    (he : ∀ q : Fin K, e (ix2 n q) = Scalar.select (k (ix1 n)) (g (ix2 n q)) 0) :
    ∑ q : Fin K, e (ix2 n q) * p (ix2 j q) = bucketTerm k g p n j := by
  unfold bucketTerm
  by_cases h : k (ix1 n) = 1#1
  · rw [h, select_one]
    exact Finset.sum_congr rfl fun q _ => by rw [he q, h, select_one]
  · have h0 := eq_zero_of_ne_one h
    rw [h0, select_zero]
    exact Finset.sum_eq_zero fun q _ => by rw [he q, h0, select_zero, zero_mul]

/-- The four row-by-row products added in order, with no mask: what comes out when the rows handed in are already
    masked. -/
def rowProducts (e0 : ((⟨2, ![N, K0]⟩ : Shape).Idx → EReal)) (p0 : ((⟨2, ![J, K0]⟩ : Shape).Idx → EReal))
    (e1 : ((⟨2, ![N, K1]⟩ : Shape).Idx → EReal)) (p1 : ((⟨2, ![J, K1]⟩ : Shape).Idx → EReal))
    (e2 : ((⟨2, ![N, K2]⟩ : Shape).Idx → EReal)) (p2 : ((⟨2, ![J, K2]⟩ : Shape).Idx → EReal))
    (e3 : ((⟨2, ![N, K3]⟩ : Shape).Idx → EReal)) (p3 : ((⟨2, ![J, K3]⟩ : Shape).Idx → EReal)) : ((⟨2, ![N, J]⟩ : Shape).Idx → EReal) := fun i =>
  (∑ q : Fin K0, e0 (ix2 (i 0) q) * p0 (ix2 (i 1) q)) + (∑ q : Fin K1, e1 (ix2 (i 0) q) * p1 (ix2 (i 1) q))
    + (∑ q : Fin K2, e2 (ix2 (i 0) q) * p2 (ix2 (i 1) q)) + (∑ q : Fin K3, e3 (ix2 (i 0) q) * p3 (ix2 (i 1) q))

/-- The products at the entry (n, j). -/
theorem rowProducts_apply (e0 : ((⟨2, ![N, K0]⟩ : Shape).Idx → EReal)) (p0 : ((⟨2, ![J, K0]⟩ : Shape).Idx → EReal))
    (e1 : ((⟨2, ![N, K1]⟩ : Shape).Idx → EReal)) (p1 : ((⟨2, ![J, K1]⟩ : Shape).Idx → EReal))
    (e2 : ((⟨2, ![N, K2]⟩ : Shape).Idx → EReal)) (p2 : ((⟨2, ![J, K2]⟩ : Shape).Idx → EReal))
    (e3 : ((⟨2, ![N, K3]⟩ : Shape).Idx → EReal)) (p3 : ((⟨2, ![J, K3]⟩ : Shape).Idx → EReal)) (n : Fin N) (j : Fin J) :
    rowProducts e0 p0 e1 p1 e2 p2 e3 p3 (ix2 n j)
      = (∑ q : Fin K0, e0 (ix2 n q) * p0 (ix2 j q)) + (∑ q : Fin K1, e1 (ix2 n q) * p1 (ix2 j q))
        + (∑ q : Fin K2, e2 (ix2 n q) * p2 (ix2 j q)) + (∑ q : Fin K3, e3 (ix2 n q) * p3 (ix2 j q)) := rfl

/-- Masking the rows first and projecting afterwards gives the embedding: bucket by bucket the zero rows project to 0,
    the other rows to the bucket's projected row. -/
theorem rowProducts_eq_embed
    (k0 : IVec ⟨1, ![N]⟩ 1) (g0 : ((⟨2, ![N, K0]⟩ : Shape).Idx → EReal)) (e0 : ((⟨2, ![N, K0]⟩ : Shape).Idx → EReal)) (p0 : ((⟨2, ![J, K0]⟩ : Shape).Idx → EReal)) (q0 : ((⟨2, ![J, K0]⟩ : Shape).Idx → EReal))
    (k1 : IVec ⟨1, ![N]⟩ 1) (g1 : ((⟨2, ![N, K1]⟩ : Shape).Idx → EReal)) (e1 : ((⟨2, ![N, K1]⟩ : Shape).Idx → EReal)) (p1 : ((⟨2, ![J, K1]⟩ : Shape).Idx → EReal)) (q1 : ((⟨2, ![J, K1]⟩ : Shape).Idx → EReal))
    (k2 : IVec ⟨1, ![N]⟩ 1) (g2 : ((⟨2, ![N, K2]⟩ : Shape).Idx → EReal)) (e2 : ((⟨2, ![N, K2]⟩ : Shape).Idx → EReal)) (p2 : ((⟨2, ![J, K2]⟩ : Shape).Idx → EReal)) (q2 : ((⟨2, ![J, K2]⟩ : Shape).Idx → EReal))
    (k3 : IVec ⟨1, ![N]⟩ 1) (g3 : ((⟨2, ![N, K3]⟩ : Shape).Idx → EReal)) (e3 : ((⟨2, ![N, K3]⟩ : Shape).Idx → EReal)) (p3 : ((⟨2, ![J, K3]⟩ : Shape).Idx → EReal)) (q3 : ((⟨2, ![J, K3]⟩ : Shape).Idx → EReal))
    (he0 : ∀ n q, e0 (ix2 n q) = Scalar.select (k0 (ix1 n)) (g0 (ix2 n q)) 0)
    (he1 : ∀ n q, e1 (ix2 n q) = Scalar.select (k1 (ix1 n)) (g1 (ix2 n q)) 0)
    (he2 : ∀ n q, e2 (ix2 n q) = Scalar.select (k2 (ix1 n)) (g2 (ix2 n q)) 0)
    (he3 : ∀ n q, e3 (ix2 n q) = Scalar.select (k3 (ix1 n)) (g3 (ix2 n q)) 0)
    (hq0 : ∀ i, q0 i = p0 i) (hq1 : ∀ i, q1 i = p1 i) (hq2 : ∀ i, q2 i = p2 i) (hq3 : ∀ i, q3 i = p3 i) :
    rowProducts e0 q0 e1 q1 e2 q2 e3 q3 = embed k0 g0 p0 k1 g1 p1 k2 g2 p2 k3 g3 p3 := by
  funext i
  obtain ⟨n, j, rfl⟩ : ∃ (n : Fin N) (j : Fin J), i = ix2 n j := ⟨i 0, i 1, eq_ix2 i⟩
  rw [rowProducts_apply, embed_apply]
  simp only [hq0, hq1, hq2, hq3]
  rw [sum_masked_row k0 g0 e0 p0 n j (he0 n), sum_masked_row k1 g1 e1 p1 n j (he1 n),
    sum_masked_row k2 g2 e2 p2 n j (he2 n), sum_masked_row k3 g3 e3 p3 n j (he3 n)]

end AdaptiveEmbedding

end
-- ==== Proof.KernelValue.lean ====
/-
  The kernel's result array after the run.

  The grid has 16 points; point t works on the 1024 tokens t·1024 … t·1024 + 1023. Its block of bucket b's masked rows is
  those 1024 rows of the bucket's row array, its block of a projection matrix is the whole matrix, and it writes back
  rows t·1024 … of the output. So entry (n, j) of the output array is written by point n / 1024 and holds the four
  row-by-row products of row n of the masked-row arrays against row j of the matrices, added in the body's order. The
  16 blocks tile the array, so this describes all of it; the host then only re-lays it as [8, 2048, 1024].
-/
import proofs.«403044_j22531398435527_3_alg».proof.Proof.KernelBody
import proofs.«403044_j22531398435527_3_alg».proof.Proof.Spec

noncomputable section

open scoped BigOperators

open Idealize.ShloMosaic Idealize.ShloMosaic.TcCoe Idealize.SL.Sem
open Idealize.ShloMosaic.Pipeline (Dat)

namespace Cert.KernelIdeal.Result

open Cert.KernelIdeal Cert.KernelIdeal.Gen Idealize.ShloMosaic.ValueIdx AdaptiveEmbedding

variable (m : (ℓ : Loc nD τ sig) → Buf (Elt Ideal) ℓ) (ρ : Dev nD → PrngReg)

/-- The arrays the region finds, under their literal types: the four buckets' masked rows … -/
abbrev rows0 (c : Dev nD) : Vec Ideal S16384x1024 .bf16 := V m c main_v18
abbrev rows1 (c : Dev nD) : Vec Ideal S16384x256 .bf16 := V m c main_v36
abbrev rows2 (c : Dev nD) : Vec Ideal S16384x64 .bf16 := V m c main_v54
abbrev rows3 (c : Dev nD) : Vec Ideal S16384x16 .bf16 := V m c main_v72
/-- … and the four projection matrices. -/
abbrev mat0 (c : Dev nD) : Vec Ideal S1024x1024 .bf16 := V m c main_v73
abbrev mat1 (c : Dev nD) : Vec Ideal S1024x256 .bf16 := V m c main_v74
abbrev mat2 (c : Dev nD) : Vec Ideal S1024x64 .bf16 := V m c main_v75
abbrev mat3 (c : Dev nD) : Vec Ideal S1024x16 .bf16 := V m c main_v76

/-- The whole output array: every entry the four row-by-row products of its row of the masked rows. -/
abbrev out (c : Dev nD) : Vec Ideal S16384x1024 .f32 :=
  rowProducts (rows0 m c) (mat0 m c) (rows1 m c) (mat1 m c) (rows2 m c) (mat2 m c) (rows3 m c) (mat3 m c)

/-- The grid has 16 points. -/
theorem t_lt (t : Fin cfg0.N) : t.val < 16 := by
  have := t.isLt; have hN : cfg0.N = 16 := N_0; omega

/-- The block indices over the grid: a row window's block is the point's, a matrix window's the one whole block, the
    output's the point's. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0 :=
  (by decide +kernel : ∀ t : Fin grid0.N, _)

/-- One point's block at the entry (r, j), over blocks and arrays of literal types: if the row blocks are rows
    t·1024 … of the row arrays and the matrix blocks the matrices, the entry is the output's at (t·1024 + r, j). -/
theorem point_entry (E0 : Vec Ideal S16384x1024 .bf16) (E1 : Vec Ideal S16384x256 .bf16) (E2 : Vec Ideal S16384x64 .bf16)
    (E3 : Vec Ideal S16384x16 .bf16) (P0 : Vec Ideal S1024x1024 .bf16) (P1 : Vec Ideal S1024x256 .bf16)
    (P2 : Vec Ideal S1024x64 .bf16) (P3 : Vec Ideal S1024x16 .bf16)
    (x0 : Vec Ideal S1024x1024 .bf16) (x1 : Vec Ideal S1024x256 .bf16) (x2 : Vec Ideal S1024x64 .bf16)
    (x3 : Vec Ideal S1024x16 .bf16) (x4 : Vec Ideal S1024x1024 .bf16) (x5 : Vec Ideal S1024x256 .bf16)
    (x6 : Vec Ideal S1024x64 .bf16) (x7 : Vec Ideal S1024x16 .bf16) (t : Nat) (ht : t < 16)
    (h0 : ∀ (r : Fin 1024) (q : Fin 1024), x0 (ix2 r q) = E0 (ix2 (⟨t * 1024 + r.val, by omega⟩ : Fin 16384) q))
    (h1 : ∀ (r : Fin 1024) (q : Fin 256), x1 (ix2 r q) = E1 (ix2 (⟨t * 1024 + r.val, by omega⟩ : Fin 16384) q))
    (h2 : ∀ (r : Fin 1024) (q : Fin 64), x2 (ix2 r q) = E2 (ix2 (⟨t * 1024 + r.val, by omega⟩ : Fin 16384) q))
    (h3 : ∀ (r : Fin 1024) (q : Fin 16), x3 (ix2 r q) = E3 (ix2 (⟨t * 1024 + r.val, by omega⟩ : Fin 16384) q))
    (h4 : x4 = P0) (h5 : x5 = P1) (h6 : x6 = P2) (h7 : x7 = P3) (y : S1024x1024.Idx) :
    k0_pay1 (F := Ideal) (k0_pay5 x3) x7 (k0_pay4 x2 x6 (k0_pay3 x1 x5 (k0_pay2 x0 x4))) y
      = rowProducts E0 P0 E1 P1 E2 P2 E3 P3
          (ix2 (⟨t * 1024 + (y 0).val, by have := idx2_lt0 (n0 := 1024) (n1 := 1024) y; omega⟩ : Fin 16384) (⟨(y 1).val, idx2_lt1 (n0 := 1024) (n1 := 1024) y⟩ : Fin 1024)) := by
  obtain ⟨r, j, rfl⟩ : ∃ (r : Fin 1024) (j : Fin 1024), y = ix2 r j := ⟨y 0, y 1, eq_ix2 y⟩
  subst h4 h5 h6 h7
  rw [Body.pay_apply, rowProducts_apply]
  simp only [h0, h1, h2, h3]

/-- Point `t`'s block of window 0: rows t·1024 … of its array. -/
theorem blk0 (c : Dev nD) (t : Fin cfg0.N) (r : Fin 1024) (q : Fin 1024) :
    (iblk m c 0 t : Vec Ideal S1024x1024 .bf16) (ix2 r q)
      = V m c main_v18 (ix2 (⟨t.val * 1024 + r.val, by have := t_lt t; omega⟩ : Fin 16384) q) := by
  obtain ⟨e0, e1⟩ : win0_0.index t (0 : Fin 2) = t.val ∧ win0_0.index t (1 : Fin 2) = 0 := by
    have h := idx_facts t; exact ⟨h.1, h.2.1⟩
  unfold iblk
  rw [View.read_apply]
  show V m c main_v18 _ = V m c main_v18 _
  congr 1
  funext a
  apply Fin.ext
  match a with
  | ⟨0, _⟩ => show win0_0.index t (0 : Fin 2) * 1024 + 1 * r.val = t.val * 1024 + r.val; rw [e0]; omega
  | ⟨1, _⟩ => show win0_0.index t (1 : Fin 2) * 1024 + 1 * q.val = q.val; rw [e1]; omega

/-- Point `t`'s block of window 1: rows t·1024 … of its array. -/
theorem blk1 (c : Dev nD) (t : Fin cfg0.N) (r : Fin 1024) (q : Fin 256) :
    (iblk m c 1 t : Vec Ideal S1024x256 .bf16) (ix2 r q)
      = V m c main_v36 (ix2 (⟨t.val * 1024 + r.val, by have := t_lt t; omega⟩ : Fin 16384) q) := by
  obtain ⟨e0, e1⟩ : win0_1.index t (0 : Fin 2) = t.val ∧ win0_1.index t (1 : Fin 2) = 0 := by
    have h := idx_facts t; exact ⟨h.2.2.1, h.2.2.2.1⟩
  unfold iblk
  rw [View.read_apply]
  show V m c main_v36 _ = V m c main_v36 _
  congr 1
  funext a
  apply Fin.ext
  match a with
  | ⟨0, _⟩ => show win0_1.index t (0 : Fin 2) * 1024 + 1 * r.val = t.val * 1024 + r.val; rw [e0]; omega
  | ⟨1, _⟩ => show win0_1.index t (1 : Fin 2) * 256 + 1 * q.val = q.val; rw [e1]; omega

/-- Point `t`'s block of window 2: rows t·1024 … of its array. -/
theorem blk2 (c : Dev nD) (t : Fin cfg0.N) (r : Fin 1024) (q : Fin 64) :
    (iblk m c 2 t : Vec Ideal S1024x64 .bf16) (ix2 r q)
      = V m c main_v54 (ix2 (⟨t.val * 1024 + r.val, by have := t_lt t; omega⟩ : Fin 16384) q) := by
  obtain ⟨e0, e1⟩ : win0_2.index t (0 : Fin 2) = t.val ∧ win0_2.index t (1 : Fin 2) = 0 := by
    have h := idx_facts t; exact ⟨h.2.2.2.2.1, h.2.2.2.2.2.1⟩
  unfold iblk
  rw [View.read_apply]
  show V m c main_v54 _ = V m c main_v54 _
  congr 1
  funext a
  apply Fin.ext
  match a with
  | ⟨0, _⟩ => show win0_2.index t (0 : Fin 2) * 1024 + 1 * r.val = t.val * 1024 + r.val; rw [e0]; omega
  | ⟨1, _⟩ => show win0_2.index t (1 : Fin 2) * 64 + 1 * q.val = q.val; rw [e1]; omega

/-- Point `t`'s block of window 3: rows t·1024 … of its array. -/
theorem blk3 (c : Dev nD) (t : Fin cfg0.N) (r : Fin 1024) (q : Fin 16) :
    (iblk m c 3 t : Vec Ideal S1024x16 .bf16) (ix2 r q)
      = V m c main_v72 (ix2 (⟨t.val * 1024 + r.val, by have := t_lt t; omega⟩ : Fin 16384) q) := by
  obtain ⟨e0, e1⟩ : win0_3.index t (0 : Fin 2) = t.val ∧ win0_3.index t (1 : Fin 2) = 0 := by
    have h := idx_facts t; exact ⟨h.2.2.2.2.2.2.1, h.2.2.2.2.2.2.2.1⟩
  unfold iblk
  rw [View.read_apply]
  show V m c main_v72 _ = V m c main_v72 _
  congr 1
  funext a
  apply Fin.ext
  match a with
  | ⟨0, _⟩ => show win0_3.index t (0 : Fin 2) * 1024 + 1 * r.val = t.val * 1024 + r.val; rw [e0]; omega
  | ⟨1, _⟩ => show win0_3.index t (1 : Fin 2) * 16 + 1 * q.val = q.val; rw [e1]; omega

/-- Point `t`'s block of window 4: the whole matrix, at every point. -/
theorem blk4 (c : Dev nD) (t : Fin cfg0.N) : (iblk m c 4 t : Vec Ideal S1024x1024 .bf16) = V m c main_v73 := by
  obtain ⟨e0, e1⟩ : win0_4.index t (0 : Fin 2) = 0 ∧ win0_4.index t (1 : Fin 2) = 0 := by
    have h := idx_facts t; exact ⟨h.2.2.2.2.2.2.2.2.1, h.2.2.2.2.2.2.2.2.2.1⟩
  funext y
  unfold iblk
  rw [View.read_apply]
  show V m c main_v73 _ = V m c main_v73 y
  congr 1
  funext a
  apply Fin.ext
  match a with
  | ⟨0, _⟩ => show win0_4.index t (0 : Fin 2) * 1024 + 1 * (y 0).val = (y 0).val; rw [e0]; omega
  | ⟨1, _⟩ => show win0_4.index t (1 : Fin 2) * 1024 + 1 * (y 1).val = (y 1).val; rw [e1]; omega

/-- Point `t`'s block of window 5: the whole matrix, at every point. -/
theorem blk5 (c : Dev nD) (t : Fin cfg0.N) : (iblk m c 5 t : Vec Ideal S1024x256 .bf16) = V m c main_v74 := by
  obtain ⟨e0, e1⟩ : win0_5.index t (0 : Fin 2) = 0 ∧ win0_5.index t (1 : Fin 2) = 0 := by
    have h := idx_facts t; exact ⟨h.2.2.2.2.2.2.2.2.2.2.1, h.2.2.2.2.2.2.2.2.2.2.2.1⟩
  funext y
  unfold iblk
  rw [View.read_apply]
  show V m c main_v74 _ = V m c main_v74 y
  congr 1
  funext a
  apply Fin.ext
  match a with
  | ⟨0, _⟩ => show win0_5.index t (0 : Fin 2) * 1024 + 1 * (y 0).val = (y 0).val; rw [e0]; omega
  | ⟨1, _⟩ => show win0_5.index t (1 : Fin 2) * 256 + 1 * (y 1).val = (y 1).val; rw [e1]; omega

/-- Point `t`'s block of window 6: the whole matrix, at every point. -/
theorem blk6 (c : Dev nD) (t : Fin cfg0.N) : (iblk m c 6 t : Vec Ideal S1024x64 .bf16) = V m c main_v75 := by
  obtain ⟨e0, e1⟩ : win0_6.index t (0 : Fin 2) = 0 ∧ win0_6.index t (1 : Fin 2) = 0 := by
    have h := idx_facts t; exact ⟨h.2.2.2.2.2.2.2.2.2.2.2.2.1, h.2.2.2.2.2.2.2.2.2.2.2.2.2.1⟩
  funext y
  unfold iblk
  rw [View.read_apply]
  show V m c main_v75 _ = V m c main_v75 y
  congr 1
  funext a
  apply Fin.ext
  match a with
  | ⟨0, _⟩ => show win0_6.index t (0 : Fin 2) * 1024 + 1 * (y 0).val = (y 0).val; rw [e0]; omega
  | ⟨1, _⟩ => show win0_6.index t (1 : Fin 2) * 64 + 1 * (y 1).val = (y 1).val; rw [e1]; omega

/-- Point `t`'s block of window 7: the whole matrix, at every point. -/
theorem blk7 (c : Dev nD) (t : Fin cfg0.N) : (iblk m c 7 t : Vec Ideal S1024x16 .bf16) = V m c main_v76 := by
  obtain ⟨e0, e1⟩ : win0_7.index t (0 : Fin 2) = 0 ∧ win0_7.index t (1 : Fin 2) = 0 := by
    have h := idx_facts t; exact ⟨h.2.2.2.2.2.2.2.2.2.2.2.2.2.2.1, h.2.2.2.2.2.2.2.2.2.2.2.2.2.2.2.1⟩
  funext y
  unfold iblk
  rw [View.read_apply]
  show V m c main_v76 _ = V m c main_v76 y
  congr 1
  funext a
  apply Fin.ext
  match a with
  | ⟨0, _⟩ => show win0_7.index t (0 : Fin 2) * 1024 + 1 * (y 0).val = (y 0).val; rw [e0]; omega
  | ⟨1, _⟩ => show win0_7.index t (1 : Fin 2) * 16 + 1 * (y 1).val = (y 1).val; rw [e1]; omega

/-- WHAT POINT `t` WRITES BACK is block `t` of the output array. -/
theorem flushed_eq (c : Dev nD) (t : Fin cfg0.N) :
    (dats m 0 c).flushed 8 t = ((cfg0.win 8).blk t).view.read (Elt Ideal) (out m c) := by
  show (cfg0.win 8).cut (grid0.coords t) ((dats m 0 c).after 8 t) = _
  rw [after0_8]
  unfold outsAt0
  rw [Body.out_eq]
  obtain ⟨e0, e1⟩ : win0_8.index t (0 : Fin 2) = t.val ∧ win0_8.index t (1 : Fin 2) = 0 := by
    have h := idx_facts t; exact ⟨h.2.2.2.2.2.2.2.2.2.2.2.2.2.2.2.2.1, h.2.2.2.2.2.2.2.2.2.2.2.2.2.2.2.2.2⟩
  have ht : t.val < 16 := t_lt t
  funext y
  rw [View.read_apply]
  refine (point_entry (rows0 m c) (rows1 m c) (rows2 m c) (rows3 m c) (mat0 m c) (mat1 m c) (mat2 m c) (mat3 m c)
    (iblk m c 0 t) (iblk m c 1 t) (iblk m c 2 t) (iblk m c 3 t) (iblk m c 4 t) (iblk m c 5 t) (iblk m c 6 t) (iblk m c 7 t)
    t.val ht (blk0 m c t) (blk1 m c t) (blk2 m c t) (blk3 m c t) (blk4 m c t) (blk5 m c t) (blk6 m c t) (blk7 m c t) y).trans ?_
  show out m c _ = out m c _
  congr 1
  funext a
  apply Fin.ext
  match a with
  | ⟨0, _⟩ => show t.val * 1024 + (y 0).val = win0_8.index t (0 : Fin 2) * 1024 + 1 * (y 0).val; rw [e0]; omega
  | ⟨1, _⟩ => show (y 1).val = win0_8.index t (1 : Fin 2) * 1024 + 1 * (y 1).val; rw [e1]; omega

/-- An index of the output array is in point `t`'s block iff each coordinate is in the block's range on its axis. -/
theorem mem_blk (t : Fin cfg0.N) (i : S16384x1024.Idx) :
    i ∈ ((cfg0.win 8).blk t).view.set ↔ ∀ a : Fin 2, win0_8.index t a * S1024x1024.size a ≤ (i a).val ∧ (i a).val < win0_8.index t a * S1024x1024.size a + S1024x1024.size a := by
  show i ∈ ((View.whole main_v77).slice (win0_8.rect t)).set ↔ _
  rw [View.set_slice_whole, Rect.mem_set_unit]
  exact Iff.rfl

/-- Row n of the output array lies in the block of point n / 1024. -/
theorem cover (i : S16384x1024.Idx) :
    ∃ t : Fin cfg0.N, (cfg0.win 8).flush t = true ∧ i ∈ ((cfg0.win 8).blk t).view.set := by
  have hi0 : (i 0).val < 16384 := idx2_lt0 (n0 := 16384) (n1 := 1024) i
  have hi1 : (i 1).val < 1024 := idx2_lt1 (n0 := 16384) (n1 := 1024) i
  let t : Fin cfg0.N := ⟨(i 0).val / 1024, by have hN : cfg0.N = 16 := N_0; omega⟩
  obtain ⟨e0, e1⟩ : win0_8.index t (0 : Fin 2) = t.val ∧ win0_8.index t (1 : Fin 2) = 0 := by
    have h := idx_facts t; exact ⟨h.2.2.2.2.2.2.2.2.2.2.2.2.2.2.2.2.1, h.2.2.2.2.2.2.2.2.2.2.2.2.2.2.2.2.2⟩
  have htv : t.val = (i 0).val / 1024 := rfl
  refine ⟨t, flush0_8 t, ?_⟩
  rw [mem_blk]
  intro a
  match a with
  | ⟨0, _⟩ => show win0_8.index t (0 : Fin 2) * 1024 ≤ (i 0).val ∧ (i 0).val < win0_8.index t (0 : Fin 2) * 1024 + 1024; rw [e0, htv]; omega
  | ⟨1, _⟩ => show win0_8.index t (1 : Fin 2) * 1024 ≤ (i 1).val ∧ (i 1).val < win0_8.index t (1 : Fin 2) * 1024 + 1024; rw [e1]; omega

/-- THE OUTPUT ARRAY after the run. -/
theorem final (c : Dev nD) : (dats m 0 c).arrAt 8 cfg0.N = out m c :=
  (dats m 0 c).arrAt_eq_of_cover 8 (out m c) (fun t _ => flushed_eq m c t) cover

end Cert.KernelIdeal.Result

end
-- ==== Proof.KernelArrays.lean ====
/-
  The arrays the kernel's region finds.

  Before the region the host computes, bucket by bucket, the bucket's mask over the tokens and the rows looked up at the
  clipped positions, by the very operations the reference uses, and then zeroes the rows of the tokens outside the bucket
  (a select against the zero array under the mask broadcast along the features) and changes the format; the matrices only
  change format. The masks and looked-up rows are named by the reference's own stages, so that they are never opened:
  both programs apply the same operations to the same token ids and tables.
-/
import proofs.«403044_j22531398435527_3_alg».proof.Proof.Gen.KernelIdeal.Frame
import proofs.«403044_j22531398435527_3_alg».proof.Proof.RefReadPatched
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Arrays

open Cert.KernelIdeal Cert.KernelIdeal.Gen

variable {F : FTy → Type} [FloatOps F]
variable (m : (ℓ : Loc nD τ sig) → Buf (Elt F) ℓ)

/-! ## The masked rows, bucket by bucket -/

set_option maxHeartbeats 4000000 in
theorem rows0_eq (c : Dev nD) :
    V m c main_v18 = truncf .bf16 (select (broadcastInDim S16384x1024 ![0, 1] bcast_S16384x1_S16384x1024_0_1 (broadcastInDim S16384x1 ![0] bcast_S16384_S16384x1_0 (Cert.ReferenceIdeal.ReadP.val_main_v6 (F := F) (m ((c : Thread nD τ).loc main_arg0)))))
      (Cert.ReferenceIdeal.ReadP.val_main_v16 (F := F) (m ((c : Thread nD τ).loc main_arg0)) (m ((c : Thread nD τ).loc main_arg1))) (broadcastInDim S16384x1024 ![] bcast_S_S16384x1024 (id (constant S_ .f32 0x00000000#32)))) bitsLt_bf16_f32 := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results_simp
  rfl

set_option maxHeartbeats 4000000 in
theorem rows1_eq (c : Dev nD) :
    V m c main_v36 = truncf .bf16 (select (broadcastInDim S16384x256 ![0, 1] bcast_S16384x1_S16384x256_0_1 (broadcastInDim S16384x1 ![0] bcast_S16384_S16384x1_0 (Cert.ReferenceIdeal.ReadP.val_main_v26 (F := F) (m ((c : Thread nD τ).loc main_arg0)))))
      (Cert.ReferenceIdeal.ReadP.val_main_v36 (F := F) (m ((c : Thread nD τ).loc main_arg0)) (m ((c : Thread nD τ).loc main_arg2))) (broadcastInDim S16384x256 ![] bcast_S_S16384x256 (id (constant S_ .f32 0x00000000#32)))) bitsLt_bf16_f32 := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results_simp
  rfl

set_option maxHeartbeats 4000000 in
theorem rows2_eq (c : Dev nD) :
    V m c main_v54 = truncf .bf16 (select (broadcastInDim S16384x64 ![0, 1] bcast_S16384x1_S16384x64_0_1 (broadcastInDim S16384x1 ![0] bcast_S16384_S16384x1_0 (Cert.ReferenceIdeal.ReadP.val_main_v46 (F := F) (m ((c : Thread nD τ).loc main_arg0)))))
      (Cert.ReferenceIdeal.ReadP.val_main_v56 (F := F) (m ((c : Thread nD τ).loc main_arg0)) (m ((c : Thread nD τ).loc main_arg3))) (broadcastInDim S16384x64 ![] bcast_S_S16384x64 (id (constant S_ .f32 0x00000000#32)))) bitsLt_bf16_f32 := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results_simp
  rfl

set_option maxHeartbeats 4000000 in
theorem rows3_eq (c : Dev nD) :
    V m c main_v72 = truncf .bf16 (select (broadcastInDim S16384x16 ![0, 1] bcast_S16384x1_S16384x16_0_1 (broadcastInDim S16384x1 ![0] bcast_S16384_S16384x1_0 (Cert.ReferenceIdeal.ReadP.val_main_v66 (F := F) (m ((c : Thread nD τ).loc main_arg0)))))
      (Cert.ReferenceIdeal.ReadP.val_main_v76 (F := F) (m ((c : Thread nD τ).loc main_arg0)) (m ((c : Thread nD τ).loc main_arg4))) (broadcastInDim S16384x16 ![] bcast_S_S16384x16 (id (constant S_ .f32 0x00000000#32)))) bitsLt_bf16_f32 := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results_simp
  rfl

/-! ## The matrices -/

set_option maxHeartbeats 4000000 in
theorem mat0_eq (c : Dev nD) : V m c main_v73 = truncf .bf16 (m ((c : Thread nD τ).loc main_arg5)) bitsLt_bf16_f32 := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results_simp

set_option maxHeartbeats 4000000 in
theorem mat1_eq (c : Dev nD) : V m c main_v74 = truncf .bf16 (m ((c : Thread nD τ).loc main_arg6)) bitsLt_bf16_f32 := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results_simp

set_option maxHeartbeats 4000000 in
theorem mat2_eq (c : Dev nD) : V m c main_v75 = truncf .bf16 (m ((c : Thread nD τ).loc main_arg7)) bitsLt_bf16_f32 := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results_simp

set_option maxHeartbeats 4000000 in
theorem mat3_eq (c : Dev nD) : V m c main_v76 = truncf .bf16 (m ((c : Thread nD τ).loc main_arg8)) bitsLt_bf16_f32 := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results_simp

end Cert.KernelIdeal.Arrays

end
-- ==== Proof.KernelRun.lean ====
/-
  The kernel's run, read: its result is the embedding, re-laid.

  The masked rows the region finds are, entry by entry, the looked-up row where the token is in the bucket and 0
  elsewhere; so the output array, the four products of the masked rows, is the embedding over the masks, the looked-up
  rows and the matrices (the change of format is the identity at the ideal values). The one host operation after the
  region re-lays the [16384, 1024] array as [8, 2048, 1024].
-/
import proofs.«403044_j22531398435527_3_alg».proof.Proof.KernelValue
import proofs.«403044_j22531398435527_3_alg».proof.Proof.KernelArrays

noncomputable section

open scoped BigOperators

open Idealize.ShloMosaic Idealize.ShloMosaic.TcCoe Idealize.SL.Sem Idealize.ShloMosaic.StableHlo
open Idealize.ShloMosaic.Pipeline (Dat)

namespace Cert.KernelIdeal.Result

open Cert.KernelIdeal Cert.KernelIdeal.Gen Idealize.ShloMosaic.ValueIdx AdaptiveEmbedding

/-- The masked rows at the entry (n, q): the mask, given per token, is spread along a unit axis and then along the
    features, so it is read at the token; the zero array is 0 everywhere; the change of format is the identity. -/
theorem masked_entry {K : Nat} (k : IVec ⟨1, ![16384]⟩ 1) (g : FVec Ideal ⟨2, ![16384, K]⟩ .f32)
    (hb2 : (⟨2, ![16384, 1]⟩ : Shape).BroadcastsInDim ⟨2, ![16384, K]⟩ ![0, 1])
    (hb1 : (⟨1, ![16384]⟩ : Shape).BroadcastsInDim ⟨2, ![16384, 1]⟩ ![0])
    (hb0 : (⟨0, ![]⟩ : Shape).BroadcastsInDim ⟨2, ![16384, K]⟩ ![]) (hlt : FTy.bf16.bits < FTy.f32.bits)
    (n : Fin 16384) (q : Fin K) :
    truncf .bf16 (select (broadcastInDim ⟨2, ![16384, K]⟩ ![0, 1] hb2 (broadcastInDim ⟨2, ![16384, 1]⟩ ![0] hb1 k)) g
      (broadcastInDim ⟨2, ![16384, K]⟩ ![] hb0 (id (constant (F := Ideal) ⟨0, ![]⟩ .f32 0x00000000#32)))) hlt (ix2 n q)
      = Scalar.select (k (ix1 n)) (g (ix2 n q)) 0 := by
  show Scalar.select (broadcastInDim ⟨2, ![16384, K]⟩ ![0, 1] hb2 (broadcastInDim ⟨2, ![16384, 1]⟩ ![0] hb1 k) (ix2 n q)) (g (ix2 n q))
      (broadcastInDim ⟨2, ![16384, K]⟩ ![] hb0 (id (constant (F := Ideal) ⟨0, ![]⟩ .f32 0x00000000#32)) (ix2 n q)) = _
  rw [broadcastInDim_apply ![0, 1] hb2 _ (ix2 n q) (ix2 n (0 : Fin 1)) (fun a => by
        match a with
        | ⟨0, _⟩ => show n.val = if (16384 : Nat) = 1 then 0 else n.val; rw [if_neg (by decide)]
        | ⟨1, _⟩ => show 0 = if (1 : Nat) = 1 then 0 else q.val; rw [if_pos rfl]),
    broadcastInDim_apply ![0] hb1 k (ix2 n (0 : Fin 1)) (ix1 n) (fun a => by
        match a with
        | ⟨0, _⟩ => show n.val = if (16384 : Nat) = 1 then 0 else n.val; rw [if_neg (by decide)]),
    broadcastInDim_apply ![] hb0 _ (ix2 n q) ix0 (fun a => a.elim0)]
  show Scalar.select (k (ix1 n)) (g (ix2 n q)) (Ideal.ofBits .f32 0x00000000#32) = _
  rw [Ideal.ofBits_zero_f32]

variable (m : (ℓ : Loc nD τ sig) → Buf (Elt Ideal) ℓ) (ρ : Dev nD → PrngReg)

/-- THE OUTPUT ARRAY IS THE EMBEDDING over the reference's masks and looked-up rows of the token ids and tables, and
    the four matrices. -/
theorem out_eq_embed (c : Dev nD) :
    out m c = embed (Cert.ReferenceIdeal.ReadP.val_main_v6 (F := Ideal) (m ((c : Thread nD τ).loc main_arg0))) (Cert.ReferenceIdeal.ReadP.val_main_v16 (F := Ideal) (m ((c : Thread nD τ).loc main_arg0)) (m ((c : Thread nD τ).loc main_arg1))) (m ((c : Thread nD τ).loc main_arg5))
      (Cert.ReferenceIdeal.ReadP.val_main_v26 (F := Ideal) (m ((c : Thread nD τ).loc main_arg0))) (Cert.ReferenceIdeal.ReadP.val_main_v36 (F := Ideal) (m ((c : Thread nD τ).loc main_arg0)) (m ((c : Thread nD τ).loc main_arg2))) (m ((c : Thread nD τ).loc main_arg6))
      (Cert.ReferenceIdeal.ReadP.val_main_v46 (F := Ideal) (m ((c : Thread nD τ).loc main_arg0))) (Cert.ReferenceIdeal.ReadP.val_main_v56 (F := Ideal) (m ((c : Thread nD τ).loc main_arg0)) (m ((c : Thread nD τ).loc main_arg3))) (m ((c : Thread nD τ).loc main_arg7))
      (Cert.ReferenceIdeal.ReadP.val_main_v66 (F := Ideal) (m ((c : Thread nD τ).loc main_arg0))) (Cert.ReferenceIdeal.ReadP.val_main_v76 (F := Ideal) (m ((c : Thread nD τ).loc main_arg0)) (m ((c : Thread nD τ).loc main_arg4))) (m ((c : Thread nD τ).loc main_arg8)) := by
  refine rowProducts_eq_embed _ _ _ _ _ _ _ _ _ _ _ _ _ _ _ _ _ _ _ _
    (fun n q => (congrFun (Arrays.rows0_eq m c) (ix2 n q)).trans (masked_entry _ _ _ _ _ _ n q))
    (fun n q => (congrFun (Arrays.rows1_eq m c) (ix2 n q)).trans (masked_entry _ _ _ _ _ _ n q))
    (fun n q => (congrFun (Arrays.rows2_eq m c) (ix2 n q)).trans (masked_entry _ _ _ _ _ _ n q))
    (fun n q => (congrFun (Arrays.rows3_eq m c) (ix2 n q)).trans (masked_entry _ _ _ _ _ _ n q))
    (fun i => congrFun (Arrays.mat0_eq m c) i) (fun i => congrFun (Arrays.mat1_eq m c) i)
    (fun i => congrFun (Arrays.mat2_eq m c) i) (fun i => congrFun (Arrays.mat3_eq m c) i)

/-- The result: the embedding re-laid as [8, 2048, 1024]. -/
abbrev result (c : Dev nD) : Buf (Elt Ideal) ((c : Thread nD τ).loc main_v78) :=
  shapeCast S8x2048x1024 (embed (Cert.ReferenceIdeal.ReadP.val_main_v6 (F := Ideal) (m ((c : Thread nD τ).loc main_arg0))) (Cert.ReferenceIdeal.ReadP.val_main_v16 (F := Ideal) (m ((c : Thread nD τ).loc main_arg0)) (m ((c : Thread nD τ).loc main_arg1))) (m ((c : Thread nD τ).loc main_arg5))
      (Cert.ReferenceIdeal.ReadP.val_main_v26 (F := Ideal) (m ((c : Thread nD τ).loc main_arg0))) (Cert.ReferenceIdeal.ReadP.val_main_v36 (F := Ideal) (m ((c : Thread nD τ).loc main_arg0)) (m ((c : Thread nD τ).loc main_arg2))) (m ((c : Thread nD τ).loc main_arg6))
      (Cert.ReferenceIdeal.ReadP.val_main_v46 (F := Ideal) (m ((c : Thread nD τ).loc main_arg0))) (Cert.ReferenceIdeal.ReadP.val_main_v56 (F := Ideal) (m ((c : Thread nD τ).loc main_arg0)) (m ((c : Thread nD τ).loc main_arg3))) (m ((c : Thread nD τ).loc main_arg7))
      (Cert.ReferenceIdeal.ReadP.val_main_v66 (F := Ideal) (m ((c : Thread nD τ).loc main_arg0))) (Cert.ReferenceIdeal.ReadP.val_main_v76 (F := Ideal) (m ((c : Thread nD τ).loc main_arg0)) (m ((c : Thread nD τ).loc main_arg4))) (m ((c : Thread nD τ).loc main_arg8))) shapeCasts_S16384x1024_S8x2048x1024

/-- The host operation after the region re-lays the output array the region leaves. -/
theorem tail_eq (c : Dev nD) :
    Pipeline.afterTail₀ cfgs (dats m) 0 (V0 m) [hostOps1] c main_v78 = result m c := by
  unfold Pipeline.afterTail₀
  show StableHlo.after hostOps1 _ (Proc.devRef .tc main_v78) = _
  after_results
  rw [(Pipeline.withArrays_arr spec0 launch0.win.arr_inj c _ _ 8).trans ((final m c).trans (out_eq_embed m c))]
  rfl

/-- The run, read: the result buffer at the re-laid embedding, the arguments unchanged. -/
theorem run : θ_run defs (onTc (τ := τ) (main (F := Ideal))) ⟨m, fun _ => 0, ρ⟩ fun r => ∀ c : Dev nD,
      r.2.mem ((c.tc : Thread nD τ).loc main_v78) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨((h c).2 main_v78 (Pipeline.mem_restRefs_of main_v78 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c)⟩)
    (run_main m ρ)

end Cert.KernelIdeal.Result

end
-- ==== Proof.RefValue.lean ====
/-
  The reference's result read at an entry.

  Before its last re-laying the reference holds, at token n and output feature j, the sum started from 0 of the four
  buckets' terms; a bucket's term is the mask choosing between Σ_q rows[n, q] · projᵀ[q, j] and 0, with projᵀ the
  transposed matrix, so projᵀ[q, j] = proj[j, q]. Since 0 + x = x this is the embedding of the specification, stated
  over the reference's own masks and looked-up rows (which are never opened).
-/
import proofs.«403044_j22531398435527_3_alg».proof.Proof.RefReadPatched
import proofs.«403044_j22531398435527_3_alg».proof.Proof.Spec

noncomputable section

open scoped BigOperators

namespace Cert.ReferenceIdeal.RefValue

open Cert.ReferenceIdeal Cert.ReferenceIdeal.ReadP Idealize.ShloMosaic Idealize.ShloMosaic.ValueIdx AdaptiveEmbedding

/-- Two rank-2 indices with the same coordinates. -/
local macro "coords2" : tactic => `(tactic| (funext a; apply Fin.ext; match a with | ⟨0, _⟩ => rfl | ⟨1, _⟩ => rfl))
/-- Two rank-1 indices with the same coordinate. -/
local macro "coords1" : tactic => `(tactic| (funext a; apply Fin.ext; match a with | ⟨0, _⟩ => rfl))

/-- The four masked projections summed from the zero array are the embedding over the reference's masks, looked-up
    rows and the four matrices. -/
theorem sum_eq_embed (x0 : (⟨S8x2048, .i32⟩ : BufTy).Contents (Elt Ideal)) (x1 : (⟨S20000x1024, .f32⟩ : BufTy).Contents (Elt Ideal)) (x2 : (⟨S20000x256, .f32⟩ : BufTy).Contents (Elt Ideal))
    (x3 : (⟨S160000x64, .f32⟩ : BufTy).Contents (Elt Ideal)) (x4 : (⟨S67735x16, .f32⟩ : BufTy).Contents (Elt Ideal)) (x5 : (⟨S1024x1024, .f32⟩ : BufTy).Contents (Elt Ideal))
    (x6 : (⟨S1024x256, .f32⟩ : BufTy).Contents (Elt Ideal)) (x7 : (⟨S1024x64, .f32⟩ : BufTy).Contents (Elt Ideal)) (x8 : (⟨S1024x16, .f32⟩ : BufTy).Contents (Elt Ideal)) :
    val_main_v81 (F := Ideal) x0 x1 x2 x3 x4 x5 x6 x7 x8
      = embed (val_main_v6 (F := Ideal) x0) (val_main_v16 (F := Ideal) x0 x1) x5
          (val_main_v26 (F := Ideal) x0) (val_main_v36 (F := Ideal) x0 x2) x6
          (val_main_v46 (F := Ideal) x0) (val_main_v56 (F := Ideal) x0 x3) x7
          (val_main_v66 (F := Ideal) x0) (val_main_v76 (F := Ideal) x0 x4) x8 := by
  funext i
  obtain ⟨n, j, rfl⟩ : ∃ (n : Fin 16384) (j : Fin 1024), i = ix2 n j := ⟨i 0, i 1, eq_ix2 i⟩
  rw [embed_apply]
  -- the mask is broadcast along the features: it is read at the token
  have m0 : idx_main_v19 (idx_main_call1_v1 (ix2 n j)) = ix1 n := by coords1
  have m1 : idx_main_v39 (idx_main_call3_v1 (ix2 n j)) = ix1 n := by coords1
  have m2 : idx_main_v59 (idx_main_call5_v1 (ix2 n j)) = ix1 n := by coords1
  have m3 : idx_main_v79 (idx_main_call7_v1 (ix2 n j)) = ix1 n := by coords1
  -- the product's left operand is read at (n, q), its right operand, the transposed matrix, at (q, j): the matrix at (j, q)
  have l0 : ∀ q, lidx_main_v18 (ix2 n j) q = ix2 n q := fun q => by coords2
  have l1 : ∀ q, lidx_main_v38 (ix2 n j) q = ix2 n q := fun q => by coords2
  have l2 : ∀ q, lidx_main_v58 (ix2 n j) q = ix2 n q := fun q => by coords2
  have l3 : ∀ q, lidx_main_v78 (ix2 n j) q = ix2 n q := fun q => by coords2
  have r0 : ∀ q, idx_main_v17 (ridx_main_v18 (ix2 n j) q) = ix2 j q := fun q => by coords2
  have r1 : ∀ q, idx_main_v37 (ridx_main_v38 (ix2 n j) q) = ix2 j q := fun q => by coords2
  have r2 : ∀ q, idx_main_v57 (ridx_main_v58 (ix2 n j) q) = ix2 j q := fun q => by coords2
  have r3 : ∀ q, idx_main_v77 (ridx_main_v78 (ix2 n j) q) = ix2 j q := fun q => by coords2
  rw [val_main_v81_apply, val_main_v61_apply, val_main_v41_apply, val_main_v21_apply,
    val_main_v80_apply, val_main_v60_apply, val_main_v40_apply, val_main_v20_apply,
    val_main_v78_apply, val_main_v58_apply, val_main_v38_apply, val_main_v18_apply]
  simp only [val_main_v77_apply, val_main_v57_apply, val_main_v37_apply, val_main_v17_apply,
    val_main_call7_v1_apply, val_main_call5_v1_apply, val_main_call3_v1_apply, val_main_call1_v1_apply,
    val_main_v79_apply, val_main_v59_apply, val_main_v39_apply, val_main_v19_apply,
    val_main_call7_v2_apply, val_main_call5_v2_apply, val_main_call3_v2_apply, val_main_call1_v2_apply,
    val_main_call7_v0_apply, val_main_call5_v0_apply, val_main_call3_v0_apply, val_main_call1_v0_apply,
    val_main_cst_30_apply, val_main_cst_22_apply, val_main_cst_14_apply, val_main_cst_6_apply,
    val_main_v1_apply, val_main_cst_apply, m0, m1, m2, m3, l0, l1, l2, l3, r0, r1, r2, r3,
    Ideal.addf_def, Ideal.ofBits_def, Ideal.ofBits_zero_f32, zero_add]
  rfl

end Cert.ReferenceIdeal.RefValue

end
-- ==== Proof.lean ====
/-
  The fused adaptive-embedding projection against its jnp reference: equal over the extended reals.

  Both programs cut the vocabulary into four buckets and, bucket by bucket, compute from the token ids the bucket's mask
  and the rows its table holds at the clipped in-bucket positions, by the same host operations. The reference projects
  every looked-up row by the bucket's matrix, keeps the projected row where the token is in the bucket and 0 elsewhere,
  and adds the four buckets to a zero array. The kernel zeroes the looked-up rows of the tokens outside the bucket first,
  and one pallas_call over 16 blocks of 1024 tokens projects the four masked row blocks and adds the products, reading
  the running sum back from its output block between the stores.

  At the ideal values the two agree entry by entry: a zero row projects to 0 whatever the matrix holds (0 · x = 0 on
  every extended real), a row that is kept projects to the same sum over the features (the kernel contracts the feature
  axis of the matrix directly, the reference the first axis of its transpose), 0 + x = x, and a change of float format
  is the identity. No step needs the inputs to be finite, so the precondition is never opened.

  The three frames: the kernel's and its idealization's are the generated frame certificates; the reference's is its
  run with the result dropped. The ideal pass rewrote nothing, so the kernel's idealization is the kernel's own text.
-/
import proofs.«403044_j22531398435527_3_alg».proof.Defs
import proofs.«403044_j22531398435527_3_alg».proof.Proof.Gen.Kernel
import proofs.«403044_j22531398435527_3_alg».proof.Proof.Gen.Kernel.Frame
import proofs.«403044_j22531398435527_3_alg».proof.Proof.Gen.KernelIdeal
import proofs.«403044_j22531398435527_3_alg».proof.Proof.Gen.KernelIdeal.Frame
import proofs.«403044_j22531398435527_3_alg».proof.Proof.Gen.ReferenceIdeal
import proofs.«403044_j22531398435527_3_alg».proof.Proof.Gen.Pre_finite_inputs
import proofs.«403044_j22531398435527_3_alg».proof.Proof.KernelRun
import proofs.«403044_j22531398435527_3_alg».proof.Proof.RefValue

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- Both programs end at the embedding, re-laid as [8, 2048, 1024], of arguments that agree. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7, h8⟩ := hagree c
  rw [Cert.ReferenceIdeal.ReadP.val_main_v82_eq, h0, h1, h2, h3, h4, h5, h6, h7, h8]
  unfold Cert.ReferenceIdeal.ReadP.val_main_v82
  rw [Cert.ReferenceIdeal.RefValue.sum_eq_embed]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
